-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : FVec F S8192x1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  main_v8
-- ==== Kernel.lean ====
abbrev S8192x1 : Shape := ⟨2, ![8192, 1]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S1x8192, .f32⟩
  | .hbm, ⟨3, _⟩ => ⟨S1x8192, .f32⟩
  | .hbm, ⟨4, _⟩ => ⟨S1x1, .f32⟩
  | .hbm, ⟨5, _⟩ => ⟨S_, .f32⟩
  | .local _ .vmem, ⟨0, _⟩ => ⟨S8192x1, .f32⟩
  | .local _ .vmem, ⟨1, _⟩ => ⟨S8192x1, .f32⟩
  | .local _ .vmem, ⟨2, _⟩ => ⟨S1x8192, .f32⟩
  | .local _ .vmem, ⟨3, _⟩ => ⟨S1x8192, .f32⟩
  | .local _ .vmem, ⟨4, _⟩ => ⟨S1x1, .f32⟩
  | .local _ .vmem, ⟨5, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let arg0 : BitVec 32 := BitVec.ofNat 32 (i 0).val
  let v5 : BitVec 1 := Scalar.cmpi .sge arg1 arg0
  let v6 : BitVec 32 := Scalar.extui v5
  let c0_i32_2 : BitVec 32 := 0#32
  let v7 : BitVec 1 := Scalar.cmpi .ne v6 c0_i32_2
  v7

def k0_mult1 (i : grid0.Coords) : BitVec 32 :=
  let arg0 : BitVec 32 := BitVec.ofNat 32 (i 0).val
  let c512_i32 : BitVec 32 := 512#32
  let v18 : BitVec 32 := Scalar.muli arg0 c512_i32
  v18
def k0_mult2 (i : grid0.Coords) : BitVec 32 :=
  let arg1 : BitVec 32 := BitVec.ofNat 32 (i 1).val
  let c512_i32_8 : BitVec 32 := 512#32
  let v20 : BitVec 32 := Scalar.muli arg1 c512_i32_8
  v20
def k0_off1 (i : grid0.Coords) : Fin 2 → Nat :=
  let arg0 : BitVec 32 := BitVec.ofNat 32 (i 0).val
  let c512_i32 : BitVec 32 := 512#32
  let v18 : BitVec 32 := Scalar.muli arg0 c512_i32
  let v19 : BitVec 32 := v18
  let v22 : Index := Scalar.indexCast v19
  let c0 : Index := 0#32
  ![v22.toNat, 0]
def k0_off2 (i : grid0.Coords) : Fin 2 → Nat :=
  let c0_10 : Index := 0#32
  let arg1 : BitVec 32 := BitVec.ofNat 32 (i 1).val
  let c512_i32_8 : BitVec 32 := 512#32
  let v20 : BitVec 32 := Scalar.muli arg1 c512_i32_8
  let v21 : BitVec 32 := v20
  let v26 : Index := Scalar.indexCast v21
  ![0, v26.toNat]
def k0_cond4 (i : grid0.Coords) : BitVec 1 :=
  let arg0 : BitVec 32 := BitVec.ofNat 32 (i 0).val
  let c15_i32 : BitVec 32 := 15#32
  let v13 : BitVec 1 := Scalar.cmpi .eq arg0 c15_i32
  let arg1 : BitVec 32 := BitVec.ofNat 32 (i 1).val
  let c15_i32_6 : BitVec 32 := 15#32
  let v14 : BitVec 1 := Scalar.cmpi .eq arg1 c15_i32_6
  let v15 : BitVec 1 := Scalar.andi v13 v14
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192x1_S1x8192 : S8192x1.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S512x1 : 0 < S512x1.numel
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  inb_S8192x1_S8192x1_0_0 : ∀ a, (![0, 0] : Fin 2 → Nat) a + S8192x1.size a ≤ S8192x1.size a
  h_S8192x1 : 0 < S8192x1.numel
  reduces_S8192x1_S1 : S8192x1.Reduces [0] S1
  shapeCasts_S1x1_S_ : S1x1.ShapeCasts S_
  hrank0 : 0 < grid0.rank
  k0_mult1_dvd : ∀ i : grid0.Coords, ∀ (k0_h2 : k0_cond2 i = 1#1), 512 ∣ (k0_mult1 i).toNat
  k0_mult2_dvd : ∀ i : grid0.Coords, ∀ (k0_h2 : k0_cond2 i = 1#1), 512 ∣ (k0_mult2 i).toNat
  k0_off1_inb : ∀ i : grid0.Coords, ∀ (k0_h2 : k0_cond2 i = 1#1), ∀ a, (k0_off1 i) a + S512x1.size a ≤ S8192x1.size a
  k0_off2_inb : ∀ i : grid0.Coords, ∀ (k0_h2 : k0_cond2 i = 1#1), ∀ a, (k0_off2 i) a + S1x512.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S8192x1.size a
  hwx0_0 : ∀ i : grid0.Coords, EltTy.bits .f32 = 32 ∨ (Rect.block (s := S8192x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8192x1.size a
  hwx0_1 : ∀ i : grid0.Coords, EltTy.bits .f32 = 32 ∨ (Rect.block (s := S8192x1) S8192x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S8192x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x1, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .i1⟩
  | .hbm, ⟨40, _⟩ => ⟨S_, .f32⟩
  | .hbm, ⟨41, _⟩ => ⟨S8192x8192, .f32⟩
  | .hbm, ⟨42, _⟩ => ⟨S8192x8192, .i1⟩
  | .hbm, ⟨43, _⟩ => ⟨S_, .f32⟩
  | .hbm, ⟨44, _⟩ => ⟨S8192x8192, .f32⟩
  | .hbm, ⟨45, _⟩ => ⟨S8192x8192, .i1⟩
  | .hbm, ⟨46, _⟩ => ⟨S_, .f32⟩
  | .hbm, ⟨47, _⟩ => ⟨S8192x8192, .f32⟩
  | .hbm, ⟨48, _⟩ => ⟨S8192x8192, .i1⟩
  | .hbm, ⟨49, _⟩ => ⟨S_, .f32⟩
  | .hbm, ⟨50, _⟩ => ⟨S_, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S_, .i1⟩
  | .hbm, ⟨70, _⟩ => ⟨S8192x8192, .i1⟩
  | .hbm, ⟨71, _⟩ => ⟨S8192x8192, .i32⟩
  | .hbm, ⟨72, _⟩ => ⟨S_, .i32⟩
  | .hbm, ⟨73, _⟩ => ⟨S8192x8192, .i32⟩
  | .hbm, ⟨74, _⟩ => ⟨S8192x8192, .i32⟩
  | .hbm, ⟨75, _⟩ => ⟨S8192x8192, .i32⟩
  | .hbm, ⟨76, _⟩ => ⟨S8192x8192, .i1⟩
  | .hbm, ⟨77, _⟩ => ⟨S_, .i1⟩
  | .hbm, ⟨78, _⟩ => ⟨S8192x8192, .i1⟩
  | .hbm, ⟨79, _⟩ => ⟨S8192x8192, .i1⟩
  | .hbm, ⟨80, _⟩ => ⟨S_, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_cst_10 : Ref sig .tc := ⟨.hbm, 49, rfl⟩
abbrev main_cst_11 : Ref sig .tc := ⟨.hbm, 50, rfl⟩
abbrev main_call0_v0 : Ref sig .tc := ⟨.hbm, 51, rfl⟩
abbrev main_call0_v1 : Ref sig .tc := ⟨.hbm, 52, rfl⟩
abbrev main_v36 : Ref sig .tc := ⟨.hbm, 53, rfl⟩
abbrev main_cst_12 : Ref sig .tc := ⟨.hbm, 54, rfl⟩
abbrev main_call1_v0 : Ref sig .tc := ⟨.hbm, 55, rfl⟩
abbrev main_v37 : Ref sig .tc := ⟨.hbm, 56, rfl⟩
abbrev main_cst_13 : Ref sig .tc := ⟨.hbm, 57, rfl⟩
abbrev main_call2_v0 : Ref sig .tc := ⟨.hbm, 58, rfl⟩
abbrev main_v38 : Ref sig .tc := ⟨.hbm, 59, rfl⟩
abbrev main_cst_14 : Ref sig .tc := ⟨.hbm, 60, rfl⟩
abbrev main_call3_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_15 : Ref sig .tc := ⟨.hbm, 66, rfl⟩
abbrev main_v43 : Ref sig .tc := ⟨.hbm, 67, rfl⟩
abbrev main_v44 : Ref sig .tc := ⟨.hbm, 68, rfl⟩
abbrev main_c : Ref sig .tc := ⟨.hbm, 69, rfl⟩
abbrev main_v45 : Ref sig .tc := ⟨.hbm, 70, rfl⟩
abbrev main_call4_v0 : Ref sig .tc := ⟨.hbm, 71, rfl⟩
abbrev main_call4_c : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_c_0 : Ref sig .tc := ⟨.hbm, 77, rfl⟩
abbrev main_call4_v5 : Ref sig .tc := ⟨.hbm, 78, rfl⟩
abbrev main_v46 : Ref sig .tc := ⟨.hbm, 79, rfl⟩
abbrev main_cst_16 : Ref sig .tc := ⟨.hbm, 80, rfl⟩
abbrev main_call5_v0 : Ref sig .tc := ⟨.hbm, 81, rfl⟩
abbrev main_call5_v1 : Ref sig .tc := ⟨.hbm, 82, rfl⟩
abbrev main_v47 : Ref sig .tc := ⟨.hbm, 83, rfl⟩
abbrev main_cst_17 : Ref sig .tc := ⟨.hbm, 84, rfl⟩
abbrev main_v48 : Ref sig .tc := ⟨.hbm, 85, rfl⟩
abbrev main_cst_18 : Ref sig .tc := ⟨.hbm, 86, rfl⟩
abbrev main_v49 : Ref sig .tc := ⟨.hbm, 87, rfl⟩
abbrev main_cst_19 : Ref sig .tc := ⟨.hbm, 88, rfl⟩
abbrev main_v50 : Ref sig .tc := ⟨.hbm, 89, rfl⟩
abbrev main_v51 : Ref sig .tc := ⟨.hbm, 90, rfl⟩
abbrev main_cst_20 : Ref sig .tc := ⟨.hbm, 91, rfl⟩
abbrev main_v52 : Ref sig .tc := ⟨.hbm, 92, rfl⟩
abbrev main_v53 : Ref sig .tc := ⟨.hbm, 93, rfl⟩

abbrev nD : Nat := 1
abbrev τ : Topo := Topo.v7x

variable {F : FTy → Type} [FloatOps F]

class Facts₀ : Prop where
  reducesTo_S8192x1_S_d0_1 : S8192x1.ReducesTo [0, 1] S_
  h_S_ : 0 < S_.numel
  shapeCasts_S8192x1_S8192 : S8192x1.ShapeCasts S8192
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.PointsKernel.lean ====
/-
  The grid of the pairwise-loss kernel is 16 x 16, visited row by row; point t has coordinates
  (t / 16, t % 16).  The body branches on three facts about the point: whether it is the first
  point (0, 0), where the accumulator is reset and the mean-squared and cosine terms are added; whether
  it lies on or above the diagonal (column >= row), where a tile of the pairwise ranking loss is added;
  and whether it is the last point (15, 15), where the accumulator is copied to the output block.
  This module states the three conditions as the body computes them and decides them over the grid.
-/
import proofs.«102133_j45062796869702_1_alg».proof.Proof.Gen.Kernel.Frame
import proofs.«102133_j45062796869702_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test "this is grid point (0, 0)", as its scalar chain computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The body's test "column >= row". -/
abbrev isUpper (i : grid0.Coords) : Prop := k0_cond2 i = 1#1
/-- The body's test "this is grid point (15, 15)". -/
abbrev isLast (i : grid0.Coords) : Prop := k0_cond4 i = 1#1

/-- Point t is (t / 16, t % 16). -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)
/-- The first point is point 0. -/
theorem isFirst_iff : ∀ t : Fin cfg0.N, isFirst (grid0.coords t) ↔ t.val = 0 :=
  (by decide +kernel : ∀ t : Fin grid0.N, isFirst (grid0.coords t) ↔ t.val = 0)
/-- On or above the diagonal: the row index is at most the column index. -/
theorem isUpper_iff : ∀ t : Fin cfg0.N, isUpper (grid0.coords t) ↔ t.val / 16 ≤ t.val % 16 :=
  (by decide +kernel : ∀ t : Fin grid0.N, isUpper (grid0.coords t) ↔ t.val / 16 ≤ t.val % 16)
/-- The last point is point 255. -/
theorem isLast_iff : ∀ t : Fin cfg0.N, isLast (grid0.coords t) ↔ t.val = 255 :=
  (by decide +kernel : ∀ t : Fin grid0.N, isLast (grid0.coords t) ↔ t.val = 255)

/-- The inputs are never idle. -/
theorem live_in : ∀ (w : Fin 4) (t : Fin cfg0.N), cfg0.idle (w.castSucc) (grid0.coords t) = false := by decide +kernel
/-- The output block is idle at every point but the last, -/
theorem idle_out : ∀ t : Fin cfg0.N, ¬ isLast (grid0.coords t) → cfg0.idle 4 (grid0.coords t) = true := by decide +kernel
/-- where it is live, -/
theorem live_out : ∀ t : Fin cfg0.N, isLast (grid0.coords t) → cfg0.idle 4 (grid0.coords t) = false := by decide +kernel
/-- and it is not written back before the last point. -/
theorem noFlush_out : ∀ t : Fin cfg0.N, ¬ isLast (grid0.coords t) → (cfg0.win 4).flush t = false := by decide +kernel

/-! ## The memrefs the body is called with -/

/-- The scratch accumulator, a whole scoped buffer of the kernel's own. -/
abbrev accM : Memref sig .tc .vmem S1x1 .f32 := Memref.whole cc0_scratch0
/-- The accumulator as a view: what it holds is stated through it. -/
abbrev accV : View sig .tc .vmem S1x1 .f32 := accM.view
/-- One staging buffer of the output window, through which its contents are stated. -/
abbrev outV : View sig .tc .vmem S1x1 .f32 := (Memref.whole cc0_stg4_0 : Memref sig .tc .vmem S1x1 .f32).view

abbrev ms0 (t : Fin cfg0.N) : Memref sig .tc .vmem S8192x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.RunsKernel.lean ====
/-
  The kernel body run symbolically, once for each of the four kinds of grid point:
  the first point (reset, tile, mean-squared and cosine terms), an upper point (a tile added to the
  accumulator), a lower point (nothing), and the last point (a tile added, the accumulator copied out).
  Each run holds the four input buffers at their contents throughout; the accumulator and the output block
  end with the stores the body made, recorded as pieces.
-/
import proofs.«102133_j45062796869702_1_alg».proof.Proof.PointsKernel

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- An upper point that is neither first nor last: the accumulator, found at `xs`, ends with the tile's store. -/
noncomputable def runUpper (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : ¬isLast i)
    (x0 x1 : Vec F S8192x1 .f32) (x2 x3 : Vec F S1x8192 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__multi_loss_kernel i arg2 harg2 arg3 harg3 arg4 harg4 arg5 harg5 arg6 harg6 arg7 harg7) K } := by
  refine ⟨?_, fun xo E K => ?run⟩
  case run =>
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- A lower point: the body does nothing. -/
theorem runLower (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : ¬isUpper i) (h4 : ¬isLast i)
    (x0 x1 : Vec F S8192x1 .f32) (x2 x3 : Vec F S1x8192 .f32) (xs xo : Vec F S1x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs) -∗ K ⟨⟩))
          ⊢ wp frame (wpE (defs₀ (F := F)) Variants.none c none) E (cc0__multi_loss_kernel i arg2 harg2 arg3 harg3 arg4 harg4 arg5 harg5 arg6 harg6 arg7 harg7) K := by
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact HS

set_option maxHeartbeats 1000000 in
/-- The first point: the accumulator, found at anything, ends with the reset, the tile's store and the store of the
    mean-squared and cosine terms. -/
noncomputable def runFirst (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : isFirst i) (h2 : isUpper i) (h4 : ¬isLast i)
    (x0 x1 : Vec F S8192x1 .f32) (x2 x3 : Vec F S1x8192 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__multi_loss_kernel i arg2 harg2 arg3 harg3 arg4 harg4 arg5 harg5 arg6 harg6 arg7 harg7) K } := by
  refine ⟨?_, fun xo E K => ?run⟩
  case run =>
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- The last point: the accumulator, found at `xs`, ends with the tile's store, and the output block, found at
    anything, with the copy of the accumulator. -/
noncomputable def runLast (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__multi_loss_kernel i arg2 harg2 arg3 harg3 arg4 harg4 arg5 harg5 arg6 harg6 arg7 harg7) K } := by
  refine ⟨?_, ?_, fun E K => ?run⟩
  case run =>
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Body

end
-- ==== Proof.FrameKernel.lean ====
/-
  The frame of the pairwise-loss kernel: every weakly fair execution of the program terminates, faults
  nowhere and leaves its two argument arrays as it found them.

  The proof data name what the scratch accumulator holds after each grid point, by recursion on the point:
  at the first point what the first point's stores leave; at a later point on or above the diagonal what the
  tile's store leaves over what the point before left; at a point below the diagonal what the point before
  left.  The output block holds, after the last point, the copy of the accumulator; before that it is idle.
  The region's invariant carries the accumulator at those contents from point to point.
-/
import proofs.«102133_j45062796869702_1_alg».proof.Proof.RunsKernel

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The first point's stores cover the accumulator. -/
theorem coverFirst (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : isFirst i) (h2 : isUpper i) (h4 : ¬isLast i)
    (x0 x1 : Vec F S8192x1 .f32) (x2 x3 : Vec F S1x8192 .f32) (y : S1x1.Idx) : ∃ pc ∈ (runFirst c i arg2 harg2 arg3 harg3 arg4 harg4 arg5 harg5 arg6 harg6 arg7 harg7 h1 h2 h4 x0 x1 x2 x3).1, y ∈ pc.1.set :=
  View.cover_of_tiledL (runFirst c i arg2 harg2 arg3 harg3 arg4 harg4 arg5 harg5 arg6 harg6 arg7 harg7 h1 h2 h4 x0 x1 x2 x3).1 S1x1.size (by sl_kernel_rfl) y
/-- What the first point leaves in the accumulator: its stores read back. -/
def accFirst (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : isFirst i) (h2 : isUpper i) (h4 : ¬isLast i)
    (x0 x1 : Vec F S8192x1 .f32) (x2 x3 : Vec F S1x8192 .f32) : Vec F S1x1 .f32 :=
  accV.read (Elt F) (accV.writes (Elt F) accV.junk (runFirst c i arg2 harg2 arg3 harg3 arg4 harg4 arg5 harg5 arg6 harg6 arg7 harg7 h1 h2 h4 x0 x1 x2 x3).1)

/-- An upper point's store covers the accumulator. -/
theorem coverUpper (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : ¬isLast i)
    (x0 x1 : Vec F S8192x1 .f32) (x2 x3 : Vec F S1x8192 .f32) (xs : Vec F S1x1 .f32) (y : S1x1.Idx) : ∃ pc ∈ (runUpper c i arg2 harg2 arg3 harg3 arg4 harg4 arg5 harg5 arg6 harg6 arg7 harg7 h1 h2 h4 x0 x1 x2 x3 xs).1, y ∈ pc.1.set :=
  View.cover_of_tiledL (runUpper c i arg2 harg2 arg3 harg3 arg4 harg4 arg5 harg5 arg6 harg6 arg7 harg7 h1 h2 h4 x0 x1 x2 x3 xs).1 S1x1.size (by sl_kernel_rfl) y
/-- What an upper point leaves in the accumulator, over what it found there. -/
def accUpper (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : ¬isLast i)
    (x0 x1 : Vec F S8192x1 .f32) (x2 x3 : Vec F S1x8192 .f32) (xs : Vec F S1x1 .f32) : Vec F S1x1 .f32 :=
  accV.read (Elt F) (accV.writes (Elt F) accV.junk (runUpper c i arg2 harg2 arg3 harg3 arg4 harg4 arg5 harg5 arg6 harg6 arg7 harg7 h1 h2 h4 x0 x1 x2 x3 xs).1)

/-- The last point's store covers the accumulator, -/
theorem coverLastAcc (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) (y : S1x1.Idx) : ∃ pc ∈ (runLast c i arg2 harg2 arg3 harg3 arg4 harg4 arg5 harg5 arg6 harg6 arg7 harg7 h1 h2 h4 x0 x1 x2 x3 xs).2.1, y ∈ pc.1.set :=
  View.cover_of_tiledL (runLast c i arg2 harg2 arg3 harg3 arg4 harg4 arg5 harg5 arg6 harg6 arg7 harg7 h1 h2 h4 x0 x1 x2 x3 xs).2.1 S1x1.size (by sl_kernel_rfl) y
/-- and its copy covers the output block. -/
theorem coverLastOut (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) (y : S1x1.Idx) : ∃ pc ∈ (runLast c i arg2 harg2 arg3 harg3 arg4 harg4 arg5 harg5 arg6 harg6 arg7 harg7 h1 h2 h4 x0 x1 x2 x3 xs).1, y ∈ pc.1.set :=
  View.cover_of_tiledL (runLast c i arg2 harg2 arg3 harg3 arg4 harg4 arg5 harg5 arg6 harg6 arg7 harg7 h1 h2 h4 x0 x1 x2 x3 xs).1 S1x1.size (by sl_kernel_rfl) y
/-- What the last point leaves in the accumulator, -/
def accLast (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) : Vec F S1x1 .f32 :=
  accV.read (Elt F) (accV.writes (Elt F) accV.junk (runLast c i arg2 harg2 arg3 harg3 arg4 harg4 arg5 harg5 arg6 harg6 arg7 harg7 h1 h2 h4 x0 x1 x2 x3 xs).2.1)
/-- and in the output block. -/
def outLast (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) : Vec F S1x1 .f32 :=
  outV.read (Elt F) (outV.writes (Elt F) outV.junk (runLast c i arg2 harg2 arg3 harg3 arg4 harg4 arg5 harg5 arg6 harg6 arg7 harg7 h1 h2 h4 x0 x1 x2 x3 xs).1)

/-! ## The accumulator after each point -/

theorem notFirst_succ (n : ℕ) (hn : n + 1 < cfg0.N) : ¬isFirst (grid0.coords ⟨n + 1, hn⟩) :=
  fun h => absurd ((isFirst_iff ⟨n + 1, hn⟩).mp h) (Nat.succ_ne_zero n)
theorem first_zero (hn : 0 < cfg0.N) : isFirst (grid0.coords ⟨0, hn⟩) := (isFirst_iff ⟨0, hn⟩).mpr rfl
theorem upper_zero (hn : 0 < cfg0.N) : isUpper (grid0.coords ⟨0, hn⟩) := (isUpper_iff ⟨0, hn⟩).mpr (by show 0 / 16 ≤ 0 % 16; decide)
theorem notLast_zero (hn : 0 < cfg0.N) : ¬isLast (grid0.coords ⟨0, hn⟩) := fun h => absurd ((isLast_iff ⟨0, hn⟩).mp h) (by show ¬ (0 : ℕ) = 255; decide)

/-- THE ACCUMULATION: what the scratch accumulator holds after the body at point `n`. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) (first_zero hn) (upper_zero hn) (notLast_zero hn) (iblk m c 0 ⟨0, hn⟩) (iblk m c 1 ⟨0, hn⟩) (iblk m c 2 ⟨0, hn⟩) (iblk m c 3 ⟨0, hn⟩)
  | n + 1, hn =>
    if hu : (n + 1) / 16 ≤ (n + 1) % 16 then
      if hl : n + 1 = 255 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) ((isUpper_iff ⟨n + 1, hn⟩).mpr hu) ((isLast_iff ⟨n + 1, hn⟩).mpr hl) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accUpper c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) ((isUpper_iff ⟨n + 1, hn⟩).mpr hu) (fun h => hl ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))
    else accAt c n (Nat.lt_of_succ_lt hn)

/-- What the output block holds after the body at point `t`: at the last point the copy of the accumulator;
    elsewhere the window is idle and what is named here is consulted by nothing. -/
def outAt (c : Dev nD) (t : Fin cfg0.N) : Vec F S1x1 .f32 :=
  if hl : t.val = 255 then
    if hz : t.val = 0 then outV.read (Elt F) outV.junk
    else outLast c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr (by omega)) ((isLast_iff t).mpr hl) (iblk m c 0 t) (iblk m c 1 t) (iblk m c 2 t) (iblk m c 3 t) (accAt m c (t.val - 1) (Nat.lt_of_le_of_lt (Nat.sub_le _ _) t.isLt))
  else outV.read (Elt F) outV.junk

theorem accAt_first (c : Dev nD) (t : Fin cfg0.N) (hz : t.val = 0) :
    accAt m c t.val t.isLt = accFirst c (grid0.coords t) (ms0 t) (hs0 t) (ms1 t) (hs1 t) (ms2 t) (hs2 t) (ms3 t) (hs3 t) (ms4 t) (hs4 t) accM (Memref.isWhole_whole _) ((isFirst_iff t).mpr hz) ((isUpper_iff t).mpr (by omega)) (fun h => absurd ((isLast_iff t).mp h) (by omega)) (iblk m c 0 t) (iblk m c 1 t) (iblk m c 2 t) (iblk m c 3 t) := by
  obtain ⟨n, hn⟩ := t
  cases n with
  | zero => rfl
  | succ n => exact absurd hz (Nat.succ_ne_zero n)

theorem accAt_upper (c : Dev nD) (t : Fin cfg0.N) (hz : t.val ≠ 0) (hu : t.val / 16 ≤ t.val % 16) (hl : t.val ≠ 255) :
    accAt m c t.val t.isLt = accUpper c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr hu) (fun h => hl ((isLast_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl hz
  | succ n => exact (dif_pos hu).trans ((dif_neg hl).trans rfl)

theorem accAt_last (c : Dev nD) (t : Fin cfg0.N) (hz : t.val ≠ 0) (hu : t.val / 16 ≤ t.val % 16) (hl : t.val = 255) :
    accAt m c t.val t.isLt = accLast c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr hu) ((isLast_iff t).mpr hl) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl hz
  | succ n => exact (dif_pos hu).trans ((dif_pos hl).trans rfl)

theorem accAt_lower (c : Dev nD) (t : Fin cfg0.N) (hz : t.val ≠ 0) (hu : ¬ t.val / 16 ≤ t.val % 16) :
    accAt m c t.val t.isLt = accAt m c (t.val - 1) (Nat.lt_of_le_of_lt (Nat.sub_le _ _) t.isLt) := by
  obtain ⟨n, hn⟩ := t
  cases n with
  | zero => exact absurd rfl hz
  | succ n => exact (dif_neg hu).trans rfl

theorem outAt_last (c : Dev nD) (t : Fin cfg0.N) (hz : t.val ≠ 0) (hl : t.val = 255) :
    outAt m c t = outLast c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr (by omega)) ((isLast_iff t).mpr hl) (iblk m c 0 t) (iblk m c 1 t) (iblk m c 2 t) (iblk m c 3 t) (accAt m c (t.val - 1) (Nat.lt_of_le_of_lt (Nat.sub_le _ _) t.isLt)) := by
  unfold outAt; rw [dif_pos hl, dif_neg hz]

/-! ## The region's invariant -/

/-- Before point `n`: at the start the class's invariant (the accumulator at anything); afterwards the accumulator
    at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input at its block, the output block at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The inputs are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

theorem leaves_0 (c : Dev nD) (t : Fin cfg0.N) : (dats m 0 c).leavesExact 0 t = owns (c : Thread nD τ) (ms0 t) fullShare (iblk m c 0 t) := by
  unfold Dat.leavesExact; rw [live_0 t, after_0]
theorem leaves_1 (c : Dev nD) (t : Fin cfg0.N) : (dats m 0 c).leavesExact 1 t = owns (c : Thread nD τ) (ms1 t) fullShare (iblk m c 1 t) := by
  unfold Dat.leavesExact; rw [live_1 t, after_1]
theorem leaves_2 (c : Dev nD) (t : Fin cfg0.N) : (dats m 0 c).leavesExact 2 t = owns (c : Thread nD τ) (ms2 t) fullShare (iblk m c 2 t) := by
  unfold Dat.leavesExact; rw [live_2 t, after_2]
theorem leaves_3 (c : Dev nD) (t : Fin cfg0.N) : (dats m 0 c).leavesExact 3 t = owns (c : Thread nD τ) (ms3 t) fullShare (iblk m c 3 t) := by
  unfold Dat.leavesExact; rw [live_3 t, after_3]

set_option maxHeartbeats 4800000 in
/-- The body at any point: the inputs' buffers hold their blocks; the point's kind is read off its number; the
    invariant hands the body the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3]
  have hN : t.val < 256 := lt_of_lt_of_eq t.isLt (show cfg0.N = 256 from N_0)
  by_cases hz : t.val = 0
  · -- the first point
    have hnl : ¬isLast (grid0.coords t) := fun h => absurd ((isLast_iff t).mp h) (by omega)
    rw [Dat.leavesExact_idle (dats m 0 c) 4 t (idle_out t hnl) (noFlush_out t hnl)]
    rw [accAt_first m c t hz]
    unfold accFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) ((isUpper_iff t).mpr (by omega)) hnl (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (coverFirst c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hnf : ¬isFirst (grid0.coords t) := fun h => hz ((isFirst_iff t).mp h)
    rw [PhiS_castSucc m c t, PhiS_pos m c _ _ hz]
    by_cases hu : t.val / 16 ≤ t.val % 16
    · by_cases hl : t.val = 255
      · -- the last point
        have hil : isLast (grid0.coords t) := (isLast_iff t).mpr hl
        rw [show (dats m 0 c).leavesExact 4 t = owns (c : Thread nD τ) (ms4 t) fullShare ((dats m 0 c).after 4 t) from by
          unfold Dat.leavesExact; rw [live_out t hil], after_4]
        rw [outAt_last m c t hz hl, accAt_last m c t hz hu hl]
        unfold accLast outLast; (try dsimp only)
        iintro ⟨⟨HS, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ hnf ((isUpper_iff t).mpr hu) hil (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hg]
        · isplitl [HS]
          · unfold owns; iexists _; isplitr
            swap; · iexact HS
            ipureintro; exact View.read_writes_of_cover _ _ _ _ _ (coverLastAcc c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverLastOut c _ _ _ _ _ _ _ _ _ _ _ _ _ _ _ _ _ _ _ _ _)
      · -- an upper point
        have hnl : ¬isLast (grid0.coords t) := fun h => hl ((isLast_iff t).mp h)
        rw [Dat.leavesExact_idle (dats m 0 c) 4 t (idle_out t hnl) (noFlush_out t hnl)]
        rw [accAt_upper m c t hz hu hl]
        unfold accUpper; (try dsimp only)
        iintro ⟨⟨HS, Hg⟩, Ho, ⟨%d0, H0⟩, ⟨%d1, H1⟩, ⟨%d2, H2⟩, ⟨%d3, H3⟩, ⟨%d4, H4⟩⟩
        iapply ((runUpper c (grid0.coords t) _ _ _ _ _ _ _ _ _ _ _ _ hnf ((isUpper_iff t).mpr hu) hnl (iblk m c 0 t) (iblk m c 1 t) (iblk m c 2 t) (iblk m c 3 t) _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverUpper c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · -- a lower point
      have hnl : ¬isLast (grid0.coords t) := fun h => absurd ((isLast_iff t).mp h) (fun h255 => hu (by omega))
      rw [Dat.leavesExact_idle (dats m 0 c) 4 t (idle_out t hnl) (noFlush_out t hnl)]
      rw [accAt_lower m c t hz hu]
      iintro ⟨⟨HS, Hg⟩, Ho, ⟨%d0, H0⟩, ⟨%d1, H1⟩, ⟨%d2, H2⟩, ⟨%d3, H3⟩, ⟨%d4, H4⟩⟩
      iapply (runLower c (grid0.coords t) _ _ _ _ _ _ _ _ _ _ _ _ hnf (fun h => hu ((isUpper_iff t).mp h)) hnl (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what
    the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.PointsKernelIdeal.lean ====
/-
  The grid of the pairwise-loss kernel is 16 x 16, visited row by row; point t has coordinates
  (t / 16, t % 16).  The body branches on three facts about the point: whether it is the first
  point (0, 0), where the accumulator is reset and the mean-squared and cosine terms are added; whether
  it lies on or above the diagonal (column >= row), where a tile of the pairwise ranking loss is added;
  and whether it is the last point (15, 15), where the accumulator is copied to the output block.
  This module states the three conditions as the body computes them and decides them over the grid.
-/
import proofs.«102133_j45062796869702_1_alg».proof.Proof.Gen.KernelIdeal.Frame
import proofs.«102133_j45062796869702_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test "this is grid point (0, 0)", as its scalar chain computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The body's test "column >= row". -/
abbrev isUpper (i : grid0.Coords) : Prop := k0_cond2 i = 1#1
/-- The body's test "this is grid point (15, 15)". -/
abbrev isLast (i : grid0.Coords) : Prop := k0_cond4 i = 1#1

/-- Point t is (t / 16, t % 16). -/
theorem coords_val : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)
/-- The first point is point 0. -/
theorem isFirst_iff : ∀ t : Fin cfg0.N, isFirst (grid0.coords t) ↔ t.val = 0 :=
  (by decide +kernel : ∀ t : Fin grid0.N, isFirst (grid0.coords t) ↔ t.val = 0)
/-- On or above the diagonal: the row index is at most the column index. -/
theorem isUpper_iff : ∀ t : Fin cfg0.N, isUpper (grid0.coords t) ↔ t.val / 16 ≤ t.val % 16 :=
  (by decide +kernel : ∀ t : Fin grid0.N, isUpper (grid0.coords t) ↔ t.val / 16 ≤ t.val % 16)
/-- The last point is point 255. -/
theorem isLast_iff : ∀ t : Fin cfg0.N, isLast (grid0.coords t) ↔ t.val = 255 :=
  (by decide +kernel : ∀ t : Fin grid0.N, isLast (grid0.coords t) ↔ t.val = 255)

/-- The inputs are never idle. -/
theorem live_in : ∀ (w : Fin 4) (t : Fin cfg0.N), cfg0.idle (w.castSucc) (grid0.coords t) = false := by decide +kernel
/-- The output block is idle at every point but the last, -/
theorem idle_out : ∀ t : Fin cfg0.N, ¬ isLast (grid0.coords t) → cfg0.idle 4 (grid0.coords t) = true := by decide +kernel
/-- where it is live, -/
theorem live_out : ∀ t : Fin cfg0.N, isLast (grid0.coords t) → cfg0.idle 4 (grid0.coords t) = false := by decide +kernel
/-- and it is not written back before the last point. -/
theorem noFlush_out : ∀ t : Fin cfg0.N, ¬ isLast (grid0.coords t) → (cfg0.win 4).flush t = false := by decide +kernel

/-! ## The memrefs the body is called with -/

/-- The scratch accumulator, a whole scoped buffer of the kernel's own. -/
abbrev accM : Memref sig .tc .vmem S1x1 .f32 := Memref.whole cc0_scratch0
/-- The accumulator as a view: what it holds is stated through it. -/
abbrev accV : View sig .tc .vmem S1x1 .f32 := accM.view
/-- One staging buffer of the output window, through which its contents are stated. -/
abbrev outV : View sig .tc .vmem S1x1 .f32 := (Memref.whole cc0_stg4_0 : Memref sig .tc .vmem S1x1 .f32).view

abbrev ms0 (t : Fin cfg0.N) : Memref sig .tc .vmem S8192x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x1 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.RunsKernelIdeal.lean ====
/-
  The kernel body run symbolically, once for each of the four kinds of grid point:
  the first point (reset, tile, mean-squared and cosine terms), an upper point (a tile added to the
  accumulator), a lower point (nothing), and the last point (a tile added, the accumulator copied out).
  Each run holds the four input buffers at their contents throughout; the accumulator and the output block
  end with the stores the body made, recorded as pieces.
-/
import proofs.«102133_j45062796869702_1_alg».proof.Proof.PointsKernelIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- An upper point that is neither first nor last: the accumulator, found at `xs`, ends with the tile's store. -/
noncomputable def runUpper (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : ¬isLast i)
    (x0 x1 : Vec F S8192x1 .f32) (x2 x3 : Vec F S1x8192 .f32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__multi_loss_kernel i arg2 harg2 arg3 harg3 arg4 harg4 arg5 harg5 arg6 harg6 arg7 harg7) K } := by
  refine ⟨?_, fun xo E K => ?run⟩
  case run =>
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- A lower point: the body does nothing. -/
theorem runLower (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : ¬isUpper i) (h4 : ¬isLast i)
    (x0 x1 : Vec F S8192x1 .f32) (x2 x3 : Vec F S1x8192 .f32) (xs xo : Vec F S1x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs) -∗ K ⟨⟩))
          ⊢ wp frame (wpE (defs₀ (F := F)) Variants.none c none) E (cc0__multi_loss_kernel i arg2 harg2 arg3 harg3 arg4 harg4 arg5 harg5 arg6 harg6 arg7 harg7) K := by
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact HS

set_option maxHeartbeats 1000000 in
/-- The first point: the accumulator, found at anything, ends with the reset, the tile's store and the store of the
    mean-squared and cosine terms. -/
noncomputable def runFirst (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : isFirst i) (h2 : isUpper i) (h4 : ¬isLast i)
    (x0 x1 : Vec F S8192x1 .f32) (x2 x3 : Vec F S1x8192 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__multi_loss_kernel i arg2 harg2 arg3 harg3 arg4 harg4 arg5 harg5 arg6 harg6 arg7 harg7) K } := by
  refine ⟨?_, fun xo E K => ?run⟩
  case run =>
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- The last point: the accumulator, found at `xs`, ends with the tile's store, and the output block, found at
    anything, with the copy of the accumulator. -/
noncomputable def runLast (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__multi_loss_kernel i arg2 harg2 arg3 harg3 arg4 harg4 arg5 harg5 arg6 harg6 arg7 harg7) K } := by
  refine ⟨?_, ?_, fun E K => ?run⟩
  case run =>
    simp only [cc0__multi_loss_kernel_eq_skeleton]; unfold cc0__multi_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Body

end
-- ==== Proof.FrameKernelIdeal.lean ====
/-
  The frame of the pairwise-loss kernel: every weakly fair execution of the program terminates, faults
  nowhere and leaves its two argument arrays as it found them.

  The proof data name what the scratch accumulator holds after each grid point, by recursion on the point:
  at the first point what the first point's stores leave; at a later point on or above the diagonal what the
  tile's store leaves over what the point before left; at a point below the diagonal what the point before
  left.  The output block holds, after the last point, the copy of the accumulator; before that it is idle.
  The region's invariant carries the accumulator at those contents from point to point.
-/
import proofs.«102133_j45062796869702_1_alg».proof.Proof.RunsKernelIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The first point's stores cover the accumulator. -/
theorem coverFirst (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : isFirst i) (h2 : isUpper i) (h4 : ¬isLast i)
    (x0 x1 : Vec F S8192x1 .f32) (x2 x3 : Vec F S1x8192 .f32) (y : S1x1.Idx) : ∃ pc ∈ (runFirst c i arg2 harg2 arg3 harg3 arg4 harg4 arg5 harg5 arg6 harg6 arg7 harg7 h1 h2 h4 x0 x1 x2 x3).1, y ∈ pc.1.set :=
  View.cover_of_tiledL (runFirst c i arg2 harg2 arg3 harg3 arg4 harg4 arg5 harg5 arg6 harg6 arg7 harg7 h1 h2 h4 x0 x1 x2 x3).1 S1x1.size (by sl_kernel_rfl) y
/-- What the first point leaves in the accumulator: its stores read back. -/
def accFirst (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : isFirst i) (h2 : isUpper i) (h4 : ¬isLast i)
    (x0 x1 : Vec F S8192x1 .f32) (x2 x3 : Vec F S1x8192 .f32) : Vec F S1x1 .f32 :=
  accV.read (Elt F) (accV.writes (Elt F) accV.junk (runFirst c i arg2 harg2 arg3 harg3 arg4 harg4 arg5 harg5 arg6 harg6 arg7 harg7 h1 h2 h4 x0 x1 x2 x3).1)

/-- An upper point's store covers the accumulator. -/
theorem coverUpper (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : ¬isLast i)
    (x0 x1 : Vec F S8192x1 .f32) (x2 x3 : Vec F S1x8192 .f32) (xs : Vec F S1x1 .f32) (y : S1x1.Idx) : ∃ pc ∈ (runUpper c i arg2 harg2 arg3 harg3 arg4 harg4 arg5 harg5 arg6 harg6 arg7 harg7 h1 h2 h4 x0 x1 x2 x3 xs).1, y ∈ pc.1.set :=
  View.cover_of_tiledL (runUpper c i arg2 harg2 arg3 harg3 arg4 harg4 arg5 harg5 arg6 harg6 arg7 harg7 h1 h2 h4 x0 x1 x2 x3 xs).1 S1x1.size (by sl_kernel_rfl) y
/-- What an upper point leaves in the accumulator, over what it found there. -/
def accUpper (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : ¬isLast i)
    (x0 x1 : Vec F S8192x1 .f32) (x2 x3 : Vec F S1x8192 .f32) (xs : Vec F S1x1 .f32) : Vec F S1x1 .f32 :=
  accV.read (Elt F) (accV.writes (Elt F) accV.junk (runUpper c i arg2 harg2 arg3 harg3 arg4 harg4 arg5 harg5 arg6 harg6 arg7 harg7 h1 h2 h4 x0 x1 x2 x3 xs).1)

/-- The last point's store covers the accumulator, -/
theorem coverLastAcc (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) (y : S1x1.Idx) : ∃ pc ∈ (runLast c i arg2 harg2 arg3 harg3 arg4 harg4 arg5 harg5 arg6 harg6 arg7 harg7 h1 h2 h4 x0 x1 x2 x3 xs).2.1, y ∈ pc.1.set :=
  View.cover_of_tiledL (runLast c i arg2 harg2 arg3 harg3 arg4 harg4 arg5 harg5 arg6 harg6 arg7 harg7 h1 h2 h4 x0 x1 x2 x3 xs).2.1 S1x1.size (by sl_kernel_rfl) y
/-- and its copy covers the output block. -/
theorem coverLastOut (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) (y : S1x1.Idx) : ∃ pc ∈ (runLast c i arg2 harg2 arg3 harg3 arg4 harg4 arg5 harg5 arg6 harg6 arg7 harg7 h1 h2 h4 x0 x1 x2 x3 xs).1, y ∈ pc.1.set :=
  View.cover_of_tiledL (runLast c i arg2 harg2 arg3 harg3 arg4 harg4 arg5 harg5 arg6 harg6 arg7 harg7 h1 h2 h4 x0 x1 x2 x3 xs).1 S1x1.size (by sl_kernel_rfl) y
/-- What the last point leaves in the accumulator, -/
def accLast (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) : Vec F S1x1 .f32 :=
  accV.read (Elt F) (accV.writes (Elt F) accV.junk (runLast c i arg2 harg2 arg3 harg3 arg4 harg4 arg5 harg5 arg6 harg6 arg7 harg7 h1 h2 h4 x0 x1 x2 x3 xs).2.1)
/-- and in the output block. -/
def outLast (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) : Vec F S1x1 .f32 :=
  outV.read (Elt F) (outV.writes (Elt F) outV.junk (runLast c i arg2 harg2 arg3 harg3 arg4 harg4 arg5 harg5 arg6 harg6 arg7 harg7 h1 h2 h4 x0 x1 x2 x3 xs).1)

/-! ## The accumulator after each point -/

theorem notFirst_succ (n : ℕ) (hn : n + 1 < cfg0.N) : ¬isFirst (grid0.coords ⟨n + 1, hn⟩) :=
  fun h => absurd ((isFirst_iff ⟨n + 1, hn⟩).mp h) (Nat.succ_ne_zero n)
theorem first_zero (hn : 0 < cfg0.N) : isFirst (grid0.coords ⟨0, hn⟩) := (isFirst_iff ⟨0, hn⟩).mpr rfl
theorem upper_zero (hn : 0 < cfg0.N) : isUpper (grid0.coords ⟨0, hn⟩) := (isUpper_iff ⟨0, hn⟩).mpr (by show 0 / 16 ≤ 0 % 16; decide)
theorem notLast_zero (hn : 0 < cfg0.N) : ¬isLast (grid0.coords ⟨0, hn⟩) := fun h => absurd ((isLast_iff ⟨0, hn⟩).mp h) (by show ¬ (0 : ℕ) = 255; decide)

/-- THE ACCUMULATION: what the scratch accumulator holds after the body at point `n`. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) (first_zero hn) (upper_zero hn) (notLast_zero hn) (iblk m c 0 ⟨0, hn⟩) (iblk m c 1 ⟨0, hn⟩) (iblk m c 2 ⟨0, hn⟩) (iblk m c 3 ⟨0, hn⟩)
  | n + 1, hn =>
    if hu : (n + 1) / 16 ≤ (n + 1) % 16 then
      if hl : n + 1 = 255 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) ((isUpper_iff ⟨n + 1, hn⟩).mpr hu) ((isLast_iff ⟨n + 1, hn⟩).mpr hl) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accUpper c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (notFirst_succ n hn) ((isUpper_iff ⟨n + 1, hn⟩).mpr hu) (fun h => hl ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))
    else accAt c n (Nat.lt_of_succ_lt hn)

/-- What the output block holds after the body at point `t`: at the last point the copy of the accumulator;
    elsewhere the window is idle and what is named here is consulted by nothing. -/
def outAt (c : Dev nD) (t : Fin cfg0.N) : Vec F S1x1 .f32 :=
  if hl : t.val = 255 then
    if hz : t.val = 0 then outV.read (Elt F) outV.junk
    else outLast c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr (by omega)) ((isLast_iff t).mpr hl) (iblk m c 0 t) (iblk m c 1 t) (iblk m c 2 t) (iblk m c 3 t) (accAt m c (t.val - 1) (Nat.lt_of_le_of_lt (Nat.sub_le _ _) t.isLt))
  else outV.read (Elt F) outV.junk

theorem accAt_first (c : Dev nD) (t : Fin cfg0.N) (hz : t.val = 0) :
    accAt m c t.val t.isLt = accFirst c (grid0.coords t) (ms0 t) (hs0 t) (ms1 t) (hs1 t) (ms2 t) (hs2 t) (ms3 t) (hs3 t) (ms4 t) (hs4 t) accM (Memref.isWhole_whole _) ((isFirst_iff t).mpr hz) ((isUpper_iff t).mpr (by omega)) (fun h => absurd ((isLast_iff t).mp h) (by omega)) (iblk m c 0 t) (iblk m c 1 t) (iblk m c 2 t) (iblk m c 3 t) := by
  obtain ⟨n, hn⟩ := t
  cases n with
  | zero => rfl
  | succ n => exact absurd hz (Nat.succ_ne_zero n)

theorem accAt_upper (c : Dev nD) (t : Fin cfg0.N) (hz : t.val ≠ 0) (hu : t.val / 16 ≤ t.val % 16) (hl : t.val ≠ 255) :
    accAt m c t.val t.isLt = accUpper c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr hu) (fun h => hl ((isLast_iff t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl hz
  | succ n => exact (dif_pos hu).trans ((dif_neg hl).trans rfl)

theorem accAt_last (c : Dev nD) (t : Fin cfg0.N) (hz : t.val ≠ 0) (hu : t.val / 16 ≤ t.val % 16) (hl : t.val = 255) :
    accAt m c t.val t.isLt = accLast c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr hu) ((isLast_iff t).mpr hl) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl hz
  | succ n => exact (dif_pos hu).trans ((dif_pos hl).trans rfl)

theorem accAt_lower (c : Dev nD) (t : Fin cfg0.N) (hz : t.val ≠ 0) (hu : ¬ t.val / 16 ≤ t.val % 16) :
    accAt m c t.val t.isLt = accAt m c (t.val - 1) (Nat.lt_of_le_of_lt (Nat.sub_le _ _) t.isLt) := by
  obtain ⟨n, hn⟩ := t
  cases n with
  | zero => exact absurd rfl hz
  | succ n => exact (dif_neg hu).trans rfl

theorem outAt_last (c : Dev nD) (t : Fin cfg0.N) (hz : t.val ≠ 0) (hl : t.val = 255) :
    outAt m c t = outLast c (grid0.coords t) (ms0 t) (hs0 t) (ms1 t) (hs1 t) (ms2 t) (hs2 t) (ms3 t) (hs3 t) (ms4 t) (hs4 t) accM (Memref.isWhole_whole _) (fun h => hz ((isFirst_iff t).mp h)) ((isUpper_iff t).mpr (by omega)) ((isLast_iff t).mpr hl) (iblk m c 0 t) (iblk m c 1 t) (iblk m c 2 t) (iblk m c 3 t) (accAt m c (t.val - 1) (Nat.lt_of_le_of_lt (Nat.sub_le _ _) t.isLt)) := by
  unfold outAt; rw [dif_pos hl, dif_neg hz]

/-! ## The region's invariant -/

/-- Before point `n`: at the start the class's invariant (the accumulator at anything); afterwards the accumulator
    at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input at its block, the output block at `outAt`;
    the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The inputs are never idle. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel

theorem leaves_0 (c : Dev nD) (t : Fin cfg0.N) : (dats m 0 c).leavesExact 0 t = owns (c : Thread nD τ) (ms0 t) fullShare (iblk m c 0 t) := by
  unfold Dat.leavesExact; rw [live_0 t, after_0]
theorem leaves_1 (c : Dev nD) (t : Fin cfg0.N) : (dats m 0 c).leavesExact 1 t = owns (c : Thread nD τ) (ms1 t) fullShare (iblk m c 1 t) := by
  unfold Dat.leavesExact; rw [live_1 t, after_1]
theorem leaves_2 (c : Dev nD) (t : Fin cfg0.N) : (dats m 0 c).leavesExact 2 t = owns (c : Thread nD τ) (ms2 t) fullShare (iblk m c 2 t) := by
  unfold Dat.leavesExact; rw [live_2 t, after_2]
theorem leaves_3 (c : Dev nD) (t : Fin cfg0.N) : (dats m 0 c).leavesExact 3 t = owns (c : Thread nD τ) (ms3 t) fullShare (iblk m c 3 t) := by
  unfold Dat.leavesExact; rw [live_3 t, after_3]

set_option maxHeartbeats 4800000 in
/-- The body at any point: the inputs' buffers hold their blocks; the point's kind is read off its number; the
    invariant hands the body the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3]
  have hN : t.val < 256 := lt_of_lt_of_eq t.isLt (show cfg0.N = 256 from N_0)
  by_cases hz : t.val = 0
  · -- the first point
    have hnl : ¬isLast (grid0.coords t) := fun h => absurd ((isLast_iff t).mp h) (by omega)
    rw [Dat.leavesExact_idle (dats m 0 c) 4 t (idle_out t hnl) (noFlush_out t hnl)]
    rw [accAt_first m c t hz]
    unfold accFirst; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr hz) ((isUpper_iff t).mpr (by omega)) hnl (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (coverFirst c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hnf : ¬isFirst (grid0.coords t) := fun h => hz ((isFirst_iff t).mp h)
    rw [PhiS_castSucc m c t, PhiS_pos m c _ _ hz]
    by_cases hu : t.val / 16 ≤ t.val % 16
    · by_cases hl : t.val = 255
      · -- the last point
        have hil : isLast (grid0.coords t) := (isLast_iff t).mpr hl
        rw [show (dats m 0 c).leavesExact 4 t = owns (c : Thread nD τ) (ms4 t) fullShare ((dats m 0 c).after 4 t) from by
          unfold Dat.leavesExact; rw [live_out t hil], after_4]
        rw [outAt_last m c t hz hl, accAt_last m c t hz hu hl]
        unfold accLast outLast; (try dsimp only)
        iintro ⟨⟨HS, Hg⟩, Ho, ⟨%d0, H0⟩, ⟨%d1, H1⟩, ⟨%d2, H2⟩, ⟨%d3, H3⟩, ⟨%d4, H4⟩⟩
        iapply ((runLast c (grid0.coords t) _ _ _ _ _ _ _ _ _ _ _ _ hnf ((isUpper_iff t).mpr hu) hil (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [HS Hg]
        · isplitl [HS]
          · unfold owns; iexists _; isplitr
            swap; · iexact HS
            ipureintro; exact View.read_writes_of_cover _ _ _ _ _ (coverLastAcc c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (coverLastOut c _ _ _ _ _ _ _ _ _ _ _ _ _ _ _ _ _ _ _ _ _)
      · -- an upper point
        have hnl : ¬isLast (grid0.coords t) := fun h => hl ((isLast_iff t).mp h)
        rw [Dat.leavesExact_idle (dats m 0 c) 4 t (idle_out t hnl) (noFlush_out t hnl)]
        rw [accAt_upper m c t hz hu hl]
        unfold accUpper; (try dsimp only)
        iintro ⟨⟨HS, Hg⟩, Ho, ⟨%d0, H0⟩, ⟨%d1, H1⟩, ⟨%d2, H2⟩, ⟨%d3, H3⟩, ⟨%d4, H4⟩⟩
        iapply ((runUpper c (grid0.coords t) _ _ _ _ _ _ _ _ _ _ _ _ hnf ((isUpper_iff t).mpr hu) hnl (iblk m c 0 t) (iblk m c 1 t) (iblk m c 2 t) (iblk m c 3 t) _).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverUpper c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · -- a lower point
      have hnl : ¬isLast (grid0.coords t) := fun h => absurd ((isLast_iff t).mp h) (fun h255 => hu (by omega))
      rw [Dat.leavesExact_idle (dats m 0 c) 4 t (idle_out t hnl) (noFlush_out t hnl)]
      rw [accAt_lower m c t hz hu]
      iintro ⟨⟨HS, Hg⟩, Ho, ⟨%d0, H0⟩, ⟨%d1, H1⟩, ⟨%d2, H2⟩, ⟨%d3, H3⟩, ⟨%d4, H4⟩⟩
      iapply (runLower c (grid0.coords t) _ _ _ _ _ _ _ _ _ _ _ _ hnf (fun h => hu ((isUpper_iff t).mp h)) hnl (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: the accumulator's contents are forgotten. -/
theorem hout (c : Dev nD) : (dats m 0 c).Φ (Fin.last cfg0.N) ⊢ Pipeline.ΦA spec0 c := by
  have hne : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ hne, PhiA_eq]
  iintro ⟨HS, Hg⟩
  isplitl [HS]
  · iexists _; iexact HS
  iexact Hg

/-! ## The run and the frame -/

set_option backward.isDefEq.respectTransparency.types false in
/-- Every weakly fair execution of @main terminates, and every final state has every array of the pipeline at what
    the proof data say and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME: the program runs to the end, faults nowhere, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.TileStep.lean ====
/-
  What the kernel body's stores leave, as functions of the arrays' contents.

  A tile step reads 512 rows of the two columns at the tile's row offset and 512 entries of the two rows
  at its column offset, forms the 512 x 512 matrix of pair losses, masks and sums it, and adds the sum to
  the accumulator.  The first point's stores leave the mean-squared and cosine terms added to a tile
  step from the reset accumulator.
-/
import proofs.«102133_j45062796869702_1_alg».proof.Proof.FrameKernelIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The 512 rows of a column that the tile at grid point `i` loads. -/
abbrev ldRows (i : grid0.Coords) (h2 : isUpper i) (x : Vec F S8192x1 .f32) : Vec F S512x1 .f32 :=
  View.ld x (Rect.unit (s := S8192x1) (k0_off1 i) S512x1.size (k0_off1_inb i h2))
/-- The 512 entries of a row that the tile at grid point `i` loads. -/
abbrev ldCols (i : grid0.Coords) (h2 : isUpper i) (x : Vec F S1x8192 .f32) : Vec F S1x512 .f32 :=
  View.ld x (Rect.unit (s := S1x8192) (k0_off2 i) S1x512.size (k0_off2_inb i h2))

/-- One tile step: the accumulator `xs` plus the masked sum of the tile's pair losses. -/
def tileStep (i : grid0.Coords) (h2 : isUpper i) (x0 x1 : Vec F S8192x1 .f32) (x2 x3 : Vec F S1x8192 .f32) (xs : Vec F S1x1 .f32) : Vec F S1x1 .f32 :=
  k0_pay2 i (k0_pay4 (ldRows i h2 x0) (ldRows i h2 x1) (ldCols i h2 x2) (ldCols i h2 x3)) (iota .tc S512x512 32 [0] iota_S512x512_d0_w32) xs

end Cert.KernelIdeal.Body

end
-- ==== Proof.PiecesKernelIdeal.lean ====
import proofs.«102133_j45062796869702_1_alg».proof.Proof.TileStep
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt F) ℓ)

/-!
  What the stores the body made at each kind of grid point read back as.

  Every store of the body to the accumulator, and the one store to the output block, writes the whole
  1 x 1 buffer, so what a list of such stores leaves is the payload of the last of them, and a load of
  the accumulator between two stores reads the payload of the store before it.  At an upper point and at
  the last point the one store's payload is the tile step over what the accumulator held; the last
  point's copy to the output block carries the same value; at the first point the stores are the reset,
  the tile step over the reset value, and the mean-squared and cosine terms over the tile step.
-/

/-- The zero offset of a rank-two buffer, spelt as the constant function. -/
theorem hz00 : (![0, 0] : Fin 2 → ℕ) = fun _ => 0 := by funext a; fin_cases a <;> rfl

/-- An upper point's one store is the whole accumulator: what it leaves is the tile step over what it found. -/
theorem accUpper_eq (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : ¬isLast i)
    (x0 x1 : Vec F S8192x1 .f32) (x2 x3 : Vec F S1x8192 .f32) (xs : Vec F S1x1 .f32) :
    accUpper c i arg2 harg2 arg3 harg3 arg4 harg4 arg5 harg5 arg6 harg6 arg7 harg7 h1 h2 h4 x0 x1 x2 x3 xs = tileStep i h2 x0 x1 x2 x3 xs := by
  unfold accUpper
  rw [View.read_writes_eq_canon _ _ _ (coverUpper c i arg2 harg2 arg3 harg3 arg4 harg4 arg5 harg5 arg6 harg6 arg7 harg7 h1 h2 h4 x0 x1 x2 x3 xs)]
  unfold runUpper; dsimp only; sl_unfold_words
  rw [View.canon_unit_zero hz00]
  simp only [View.readAt_eq_ld, harg7.read_unread, harg2.read_unread, harg3.read_unread, harg4.read_unread, harg5.read_unread, View.ld_unit_zero (S := S1x1) hz00]
  unfold tileStep ldRows ldCols
  rfl

/-- The last point's one store to the accumulator is again the tile step over what it found. -/
theorem accLast_eq (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) :
    accLast c i arg2 harg2 arg3 harg3 arg4 harg4 arg5 harg5 arg6 harg6 arg7 harg7 h1 h2 h4 x0 x1 x2 x3 xs = tileStep i h2 x0 x1 x2 x3 xs := by
  unfold accLast
  rw [View.read_writes_eq_canon _ _ _ (coverLastAcc c i arg2 harg2 arg3 harg3 arg4 harg4 arg5 harg5 arg6 harg6 arg7 harg7 h1 h2 h4 x0 x1 x2 x3 xs)]
  unfold runLast; dsimp only; sl_unfold_words
  rw [View.canon_unit_zero hz00]
  simp only [View.readAt_eq_ld, harg7.read_unread, harg2.read_unread, harg3.read_unread, harg4.read_unread, harg5.read_unread, View.ld_unit_zero (S := S1x1) hz00]
  unfold tileStep ldRows ldCols
  rfl

/-- The last point copies the accumulator, read back after the tile's store, to the output block: the output
    block ends with the tile step too. -/
theorem outLast_eq (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : ¬isFirst i) (h2 : isUpper i) (h4 : isLast i)
    (x0 x1 : Vec F S8192x1 .f32) (x2 x3 : Vec F S1x8192 .f32) (xs : Vec F S1x1 .f32) :
    outLast c i arg2 harg2 arg3 harg3 arg4 harg4 arg5 harg5 arg6 harg6 arg7 harg7 h1 h2 h4 x0 x1 x2 x3 xs = tileStep i h2 x0 x1 x2 x3 xs := by
  unfold outLast
  rw [View.read_writes_eq_canon _ _ _ (coverLastOut c i arg2 harg2 arg3 harg3 arg4 harg4 arg5 harg5 arg6 harg6 arg7 harg7 h1 h2 h4 x0 x1 x2 x3 xs)]
  unfold runLast; dsimp only; sl_unfold_words
  rw [View.canon_unit_zero hz00, View.readCov_unit_zero (S := S1x1) _ hz00]
  simp only [View.readAt_eq_ld, harg7.read_unread, harg2.read_unread, harg3.read_unread, harg4.read_unread, harg5.read_unread, View.ld_unit_zero (S := S1x1) hz00]
  unfold tileStep ldRows ldCols
  rfl

/-- The first point makes three whole stores: the reset, the tile step over the reset value, and the head terms
    over the tile step.  Each later load of the accumulator reads the payload of the store just before it, and
    the last store is what stays. -/
theorem accFirst_eq (c : Dev nD) (i : grid0.Coords) (arg2 : Memref sig .tc .vmem S8192x1 .f32) (harg2 : arg2.IsWhole) (arg3 : Memref sig .tc .vmem S8192x1 .f32) (harg3 : arg3.IsWhole) (arg4 : Memref sig .tc .vmem S1x8192 .f32) (harg4 : arg4.IsWhole) (arg5 : Memref sig .tc .vmem S1x8192 .f32) (harg5 : arg5.IsWhole) (arg6 : Memref sig .tc .vmem S1x1 .f32) (harg6 : arg6.IsWhole) (arg7 : Memref sig .tc .vmem S1x1 .f32) (harg7 : arg7.IsWhole) (h1 : isFirst i) (h2 : isUpper i) (h4 : ¬isLast i)
    (x0 x1 : Vec F S8192x1 .f32) (x2 x3 : Vec F S1x8192 .f32) :
    accFirst c i arg2 harg2 arg3 harg3 arg4 harg4 arg5 harg5 arg6 harg6 arg7 harg7 h1 h2 h4 x0 x1 x2 x3 = k0_pay3 x0 x1 (tileStep i h2 x0 x1 x2 x3 (k0_pay1 (F := F))) := by
  unfold accFirst
  rw [View.read_writes_eq_canon _ _ _ (coverFirst c i arg2 harg2 arg3 harg3 arg4 harg4 arg5 harg5 arg6 harg6 arg7 harg7 h1 h2 h4 x0 x1 x2 x3)]
  unfold runFirst; dsimp only; sl_unfold_words
  rw [View.canon_cons_unit_zero (S := S1x1) hz00]
  simp only [View.readCov_cons_toLoadRect]
  simp only [View.readAt_eq_ld, harg2.read_unread, harg3.read_unread, harg4.read_unread, harg5.read_unread, View.ld_unit_zero (S := S8192x1) hz00]
  unfold tileStep ldRows ldCols
  rfl

end Cert.KernelIdeal.Body
end
-- ==== Proof.BlocksKernelIdeal.lean ====
import proofs.«102133_j45062796869702_1_alg».proof.Proof.TileStep
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt F) ℓ)

/-! # The input windows' blocks and the tile's loads, read at an index

Each of the four input windows has one block, its whole array, at every grid point; so a block's entry is
the array's entry at the same index.  The first two arrays are the two input columns as launched.  The
last two are the same columns reshaped from 8192 x 1 to 1 x 8192 before the region; the entry (0, b) of the
reshaped row and the entry (b, 0) of the column have the same row-major position b, so they are equal.
A tile at grid point (i0, i1) loads rows 512 * i0 .. 512 * i0 + 511 of a column and entries
512 * i1 .. 512 * i1 + 511 of a row; the offsets are 32-bit products that do not wrap for a grid
coordinate below 16. -/

/-! ## The windows' blocks are their arrays -/

/-- Every block of the first window is the whole array: the block index is 0 on both axes at every grid point. -/
theorem idx0_zero : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
/-- The same for the second window, -/
theorem idx1_zero : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- the third, -/
theorem idx2_zero : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- and the fourth. -/
theorem idx3_zero : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The row the region finds in the third window's array is the first column reshaped: the reshape before the
    region wrote it. -/
theorem V_main_v0 (c : Dev nD) :
    (V m c main_v0 : S1x8192.Idx → Elt F .f32) = shapeCast S1x8192 (m ((c : Thread nD τ).loc main_arg0)) shapeCasts_S8192x1_S1x8192 := by
  show StableHlo.after hostOps0 (fun b => m (c, b)) (Proc.devRef .tc main_v0) = _
  after_results
  rfl
/-- The row in the fourth window's array is the second column reshaped. -/
theorem V_main_v1 (c : Dev nD) :
    (V m c main_v1 : S1x8192.Idx → Elt F .f32) = shapeCast S1x8192 (m ((c : Thread nD τ).loc main_arg1)) shapeCasts_S8192x1_S1x8192 := by
  show StableHlo.after hostOps0 (fun b => m (c, b)) (Proc.devRef .tc main_v1) = _
  after_results
  rfl

/-- A column reshaped to a row, read at (0, b), is the column at (b, 0): both sit at row-major position b. -/
theorem reshape_col_apply (x : Vec F S8192x1 .f32) (b : Fin 8192) :
    shapeCast S1x8192 x shapeCasts_S8192x1_S1x8192 (ix2 0 b) = x (ix2 b 0) := by
  refine shapeCast_apply x shapeCasts_S8192x1_S1x8192 (ix2 0 b) (ix2 b 0) ?_
  rw [Shape.rowMajor_val_two, Shape.rowMajor_val_two]
  show b.val * 1 + 0 = 0 * 8192 + b.val
  omega

theorem blk0_apply (c : Dev nD) (t : Fin cfg0.N) (a : Fin 8192) :
    (iblk m c 0 t : Vec F S8192x1 .f32) (ix2 a 0) = (m ((c : Thread nD τ).loc main_arg0) : Vec F S8192x1 .f32) (ix2 a 0) := by
  refine Eq.trans ?_ (congrFun (V_main_arg0 m c) (ix2 a 0))
  show V m c main_arg0 (((cfg0.win 0).blk t).view.emb (ix2 a 0)) = V m c main_arg0 (ix2 a 0)
  refine congrArg (V m c main_arg0) (funext fun d => Fin.ext ?_)
  match d with
  | ⟨0, _⟩ =>
    show win0_0.index t (0 : Fin 2) * 8192 + 1 * a.val = a.val
    rw [(idx0_zero t).1]; omega
  | ⟨1, _⟩ =>
    show win0_0.index t (1 : Fin 2) * 1 + 1 * 0 = 0
    rw [(idx0_zero t).2]

theorem blk1_apply (c : Dev nD) (t : Fin cfg0.N) (a : Fin 8192) :
    (iblk m c 1 t : Vec F S8192x1 .f32) (ix2 a 0) = (m ((c : Thread nD τ).loc main_arg1) : Vec F S8192x1 .f32) (ix2 a 0) := by
  refine Eq.trans ?_ (congrFun (V_main_arg1 m c) (ix2 a 0))
  show V m c main_arg1 (((cfg0.win 1).blk t).view.emb (ix2 a 0)) = V m c main_arg1 (ix2 a 0)
  refine congrArg (V m c main_arg1) (funext fun d => Fin.ext ?_)
  match d with
  | ⟨0, _⟩ =>
    show win0_1.index t (0 : Fin 2) * 8192 + 1 * a.val = a.val
    rw [(idx1_zero t).1]; omega
  | ⟨1, _⟩ =>
    show win0_1.index t (1 : Fin 2) * 1 + 1 * 0 = 0
    rw [(idx1_zero t).2]

theorem blk2_apply (c : Dev nD) (t : Fin cfg0.N) (b : Fin 8192) :
    (iblk m c 2 t : Vec F S1x8192 .f32) (ix2 0 b) = (m ((c : Thread nD τ).loc main_arg0) : Vec F S8192x1 .f32) (ix2 b 0) := by
  have e1 : (iblk m c 2 t : Vec F S1x8192 .f32) (ix2 0 b) = (V m c main_v0 : S1x8192.Idx → Elt F .f32) (ix2 0 b) := by
    show V m c main_v0 (((cfg0.win 2).blk t).view.emb (ix2 0 b)) = V m c main_v0 (ix2 0 b)
    refine congrArg (V m c main_v0) (funext fun d => Fin.ext ?_)
    match d with
    | ⟨0, _⟩ =>
      show win0_2.index t (0 : Fin 2) * 1 + 1 * 0 = 0
      rw [(idx2_zero t).1]
    | ⟨1, _⟩ =>
      show win0_2.index t (1 : Fin 2) * 8192 + 1 * b.val = b.val
      rw [(idx2_zero t).2]; omega
  rw [e1, V_main_v0 m c]
  exact reshape_col_apply _ b

theorem blk3_apply (c : Dev nD) (t : Fin cfg0.N) (b : Fin 8192) :
    (iblk m c 3 t : Vec F S1x8192 .f32) (ix2 0 b) = (m ((c : Thread nD τ).loc main_arg1) : Vec F S8192x1 .f32) (ix2 b 0) := by
  have e1 : (iblk m c 3 t : Vec F S1x8192 .f32) (ix2 0 b) = (V m c main_v1 : S1x8192.Idx → Elt F .f32) (ix2 0 b) := by
    show V m c main_v1 (((cfg0.win 3).blk t).view.emb (ix2 0 b)) = V m c main_v1 (ix2 0 b)
    refine congrArg (V m c main_v1) (funext fun d => Fin.ext ?_)
    match d with
    | ⟨0, _⟩ =>
      show win0_3.index t (0 : Fin 2) * 1 + 1 * 0 = 0
      rw [(idx3_zero t).1]
    | ⟨1, _⟩ =>
      show win0_3.index t (1 : Fin 2) * 8192 + 1 * b.val = b.val
      rw [(idx3_zero t).2]; omega
  rw [e1, V_main_v1 m c]
  exact reshape_col_apply _ b

/-! ## The tile's loads -/

/-- The word arithmetic of a tile offset: 512 times a grid coordinate below 16 does not wrap. -/
theorem off_word : ∀ k : Fin 16, (Scalar.indexCast (Scalar.muli (BitVec.ofNat 32 k.val) 512#32)).toNat = 512 * k.val := by
  decide

theorem ldRows_apply (i : grid0.Coords) (h2 : isUpper i) (x : Vec F S8192x1 .f32) (r : Fin 512) :
    ldRows i h2 x (ix2 r 0) = x (ix2 ⟨512 * (i 0).val + r.val, by have := (i 0).isLt; have := r.isLt; show _ < 8192; have h16 : (i 0).val < 16 := (i 0).isLt; omega⟩ 0) := by
  show x ((Rect.unit (s := S8192x1) (k0_off1 i) S512x1.size (k0_off1_inb i h2)).idx (ix2 r 0)) = _
  refine congrArg x (funext fun a => Fin.ext ?_)
  match a with
  | ⟨0, _⟩ =>
    show (Scalar.indexCast (Scalar.muli (BitVec.ofNat 32 (i 0).val) 512#32)).toNat + 1 * r.val = 512 * (i 0).val + r.val
    rw [off_word (i 0)]; omega
  | ⟨1, _⟩ =>
    show 0 + 1 * 0 = 0
    rfl

theorem ldCols_apply (i : grid0.Coords) (h2 : isUpper i) (x : Vec F S1x8192 .f32) (q : Fin 512) :
    ldCols i h2 x (ix2 0 q) = x (ix2 0 ⟨512 * (i 1).val + q.val, by have := q.isLt; show _ < 8192; have h16 : (i 1).val < 16 := (i 1).isLt; omega⟩) := by
  show x ((Rect.unit (s := S1x8192) (k0_off2 i) S1x512.size (k0_off2_inb i h2)).idx (ix2 0 q)) = _
  refine congrArg x (funext fun a => Fin.ext ?_)
  match a with
  | ⟨0, _⟩ =>
    show 0 + 1 * 0 = 0
    rfl
  | ⟨1, _⟩ =>
    show (Scalar.indexCast (Scalar.muli (BitVec.ofNat 32 (i 1).val) 512#32)).toNat + 1 * q.val = 512 * (i 1).val + q.val
    rw [off_word (i 1)]; omega

end Cert.KernelIdeal.Body
end
-- ==== Proof.LossSpec.lean ====
/-
  The loss both programs compute, as one function of the two input columns read as extended reals.

  For columns t, p of 8192 extended reals:
  * the mean squared error: the sum of (t a - p a)^2 over a, times 1/8192;
  * the clamped mean of 1 - cos, where cos a = (t a * p a) / max (|t a| * |p a|) eps, the mean again the
    sum times 1/8192, clamped below at 0;
  * the pairwise ranking loss: the sum, over the ordered pairs a < b, of max 0 (-(sign) * (p a - p b)), the
    sign chosen by the order of t a, t b and then of p a, p b.
  The total is their sum.  Every operation is the extended reals' own; the comparisons and the four-way
  choice are kept in the form both printed programs spell them (a compare against the zero pattern, a
  select on its bit), so that neither side has to open them.
-/
import Idealize.ShloMosaic.PureOps.Ideal
import Idealize.ShloMosaic.PureOps.Ideal.Laws
import Idealize.ShloMosaic.Lib.ValueIdx

noncomputable section

namespace Cert.LossSpec

open Idealize.ShloMosaic

/-- The zero pattern, as both programs compare against it. -/
abbrev zeroW : Ideal .f32 := FloatOps.ofBits (F := Ideal) .f32 0x00000000#32
/-- The pattern of 1.0. -/
abbrev oneW : Ideal .f32 := FloatOps.ofBits (F := Ideal) .f32 0x3F800000#32
/-- The pattern of -1.0. -/
abbrev negOneW : Ideal .f32 := FloatOps.ofBits (F := Ideal) .f32 0xBF800000#32
/-- The pattern of the cosine's denominator clamp (the f32 nearest 1e-8). -/
abbrev epsW : Ideal .f32 := FloatOps.ofBits (F := Ideal) .f32 0x322BCC77#32

/-- The ranking target of a pair from the two differences: +1 where dt > 0, -1 where dt < 0, and on a tie
    of t, -1 where dp > 0, +1 where dp < 0, else 0. -/
def target (dt dp : Ideal .f32) : Ideal .f32 :=
  Scalar.select (FloatOps.cmpf .ogt dt zeroW) oneW
    (Scalar.select (FloatOps.cmpf .olt dt zeroW) negOneW
      (Scalar.select (FloatOps.cmpf .ogt dp zeroW) negOneW
        (Scalar.select (FloatOps.cmpf .olt dp zeroW) oneW zeroW)))

/-- The margin-ranking loss of a pair from its four entries: (ta, pa) the first row's, (tb, pb) the second's. -/
def pairTerm (ta pa tb pb : EReal) : EReal :=
  max 0 (-(target (ta - tb) (pa - pb)) * (pa - pb))

/-- The margin-ranking loss of the pair (a, b). -/
def pairLoss (t p : Fin 8192 → EReal) (a b : Fin 8192) : EReal :=
  pairTerm (t a) (p a) (t b) (p b)

/-- The ranking loss: the pairs a < b. -/
def rankLoss (t p : Fin 8192 → EReal) : EReal :=
  ∑ a : Fin 8192, ∑ b : Fin 8192, if a < b then pairLoss t p a b else 0

/-- The mean squared error. -/
def mseLoss (t p : Fin 8192 → EReal) : EReal :=
  (∑ a : Fin 8192, (t a - p a) * (t a - p a)) * (((1 / 8192 : ℝ)) : EReal)

/-- One minus the clamped cosine of the one-entry rows (t a), (p a). -/
def oneMinusCos (t p : Fin 8192 → EReal) (a : Fin 8192) : EReal :=
  1 - Ideal.div (t a * p a) (max (max (t a) (-(t a)) * max (p a) (-(p a))) epsW)

/-- The clamped mean of 1 - cos. -/
def simLoss (t p : Fin 8192 → EReal) : EReal :=
  max 0 ((∑ a : Fin 8192, oneMinusCos t p a) * (((1 / 8192 : ℝ)) : EReal))

/-- The whole loss. -/
def total (t p : Fin 8192 → EReal) : EReal :=
  mseLoss t p + simLoss t p + rankLoss t p

/-- The column of a [8192, 1] array as a function of the row. -/
abbrev col (x : (⟨2, ![8192, 1]⟩ : Shape).Idx → EReal) : Fin 8192 → EReal := fun a => x (ValueIdx.ix2 a 0)

/-! ### The patterns' values -/

theorem zeroW_eq : zeroW = 0 := Ideal.ofBits_zero_f32

theorem oneW_eq : oneW = 1 := by
  show Ideal.ofBits .f32 0x3F800000#32 = 1
  simp [Ideal.ofBits, Ideal.ieee, -EReal.coe_mul]; norm_num

/-- 2^-13, the kernel's folded reciprocal of the row count. -/
theorem inv8192W_eq : (FloatOps.ofBits (F := Ideal) .f32 0x39000000#32 : Ideal .f32) = (((1 / 8192 : ℝ)) : EReal) := by
  show Ideal.ofBits .f32 0x39000000#32 = _
  simp [Ideal.ofBits, Ideal.ieee, -EReal.coe_mul]; norm_num

/-- 8192.0, the reference's divisor. -/
theorem w8192_eq : (FloatOps.ofBits (F := Ideal) .f32 0x46000000#32 : Ideal .f32) = ((8192 : ℝ) : EReal) := by
  show Ideal.ofBits .f32 0x46000000#32 = _
  simp [Ideal.ofBits, Ideal.ieee, -EReal.coe_mul]; norm_num

/-- The host's quotient by 8192.0 is the product with 1/8192, on every extended real. -/
theorem div8192 (x : EReal) :
    Ideal.div x (FloatOps.ofBits (F := Ideal) .f32 0x46000000#32 : Ideal .f32) = x * (((1 / 8192 : ℝ)) : EReal) := by
  rw [w8192_eq]; exact Ideal.div_coe (by norm_num) x

end Cert.LossSpec

end
-- ==== Proof.TileValue.lean ====
/-
  One 512 x 512 tile's contribution to the pairwise ranking loss, read off the kernel body's payloads at the
  extended reals.

  The tile at grid point (i 0, i 1) takes a block of 512 rows (the column entries t[r], p[r]) and a block of 512
  columns (the row entries t[c], p[c]).  Its pair matrix holds, at (r, c), the margin-ranking term
  max 0 (-(target (t[r] - t[c]) (p[r] - p[c])) * (p[r] - p[c])).  The matrix is multiplied entry by entry by a mask:
  all ones when the tile lies strictly above the diagonal of tiles (i 0 < i 1), and on the diagonal the strict upper
  triangle r < c, made as the converted bit of a comparison of the row number with the column number.  The masked
  matrix is summed along the lanes, then along the sublanes, multiplied by 1 and added to the accumulator.  On the
  extended reals x * 1 = x and x * 0 = 0 for every x, so a masked entry is the pair term where the mask is set and 0
  elsewhere, and the result is the accumulator plus the double sum of those entries.
-/
import proofs.«102133_j45062796869702_1_alg».proof.Proof.Gen.KernelIdeal.Skeleton
import proofs.«102133_j45062796869702_1_alg».proof.Proof.LossSpec
import Idealize.ShloMosaic.Lib.ValueLayout
import Idealize.ShloMosaic.Lib.Pipeline.Value
import Idealize.ShloMosaic.PureOps.Ideal.Laws

noncomputable section
open Idealize.ShloMosaic Idealize.ShloMosaic.ValueIdx

namespace Cert.KernelIdeal.TileValue
open Cert.KernelIdeal Cert.KernelIdeal.Gen Cert.LossSpec

/-! ### The layout steps of the pair matrix read at an index -/

/-- A column broadcast along the lanes reads its row's entry. -/
theorem bcol (v : Vec Ideal S512x1 .f32) (r c : Fin 512) :
    broadcastTo S512x512 v broadcasts_S512x1_S512x512 (ix2 r c) = v (ix2 r 0) :=
  broadcastTo_apply v _ (ix2 r c) (ix2 r 0) (fun a => match a with | ⟨0, _⟩ => rfl | ⟨1, _⟩ => rfl)

/-- A row broadcast along the sublanes reads its column's entry. -/
theorem brow (v : Vec Ideal S1x512 .f32) (r c : Fin 512) :
    broadcastTo S512x512 v broadcasts_S1x512_S512x512 (ix2 r c) = v (ix2 0 c) :=
  broadcastTo_apply v _ (ix2 r c) (ix2 0 c) (fun a => match a with | ⟨0, _⟩ => rfl | ⟨1, _⟩ => rfl)

/-- The pair matrix at (r, c) is the pair term of the column entries at r and the row entries at c:
    the differences are taken entry by entry, the four-way choice is the specification's `target`
    word for word, and `0 - x` is `-x` on the extended reals. -/
theorem pay4_apply (v23 v25 : Vec Ideal S512x1 .f32) (v27 v30 : Vec Ideal S1x512 .f32) (r c : Fin 512) :
    k0_pay4 (F := Ideal) v23 v25 v27 v30 (ix2 r c)
      = pairTerm (v23 (ix2 r 0)) (v25 (ix2 r 0)) (v27 (ix2 0 c)) (v30 (ix2 0 c)) := by
  unfold k0_pay4
  simp only [maximumf_apply, mulf_apply, subf_apply, select_apply, cmpf_apply, broadcast_apply, shapeCast_self]
  rw [bcol v23 r c, brow v27 r c, bcol v25 r c, brow v30 r c]
  show max zeroW ((zeroW - target (v23 (ix2 r 0) - v27 (ix2 0 c)) (v25 (ix2 r 0) - v30 (ix2 0 c)))
    * (v25 (ix2 r 0) - v30 (ix2 0 c))) = _
  rw [zeroW_eq, zero_sub]
  rfl

/-! ### The mask -/

/-- A natural number below 2^31, as a 32-bit word read signed, is itself. -/
theorem toInt_ofNat_small {a : Nat} (ha : a < 2 ^ 31) : (BitVec.ofNat 32 a).toInt = (a : Int) := by
  have h1 : (BitVec.ofNat 32 a).toNat = a := by rw [BitVec.toNat_ofNat]; omega
  rw [BitVec.toInt_eq_toNat_of_lt (by rw [h1]; omega), h1]

/-- The signed "less than" of two small naturals as words is their order. -/
theorem slt_ofNat {a b : Nat} (ha : a < 2 ^ 31) (hb : b < 2 ^ 31) :
    IntOp.cmpi .slt (BitVec.ofNat 32 a) (BitVec.ofNat 32 b) = 1#1 ↔ a < b := by
  rw [IntOp.cmpi_slt, toInt_ofNat_small ha, toInt_ofNat_small hb]; omega

/-- The signed "greater than" likewise. -/
theorem sgt_ofNat {a b : Nat} (ha : a < 2 ^ 31) (hb : b < 2 ^ 31) :
    Scalar.cmpi .sgt (BitVec.ofNat 32 b) (BitVec.ofNat 32 a) = 1#1 ↔ a < b := by
  show IntOp.cmpi .sgt _ _ = 1#1 ↔ _
  rw [IntOp.cmpi_sgt, toInt_ofNat_small ha, toInt_ofNat_small hb]; omega

/-- The set bit, zero-extended and converted, is 1. -/
theorem sitofp_one : (FloatOps.sitofp (F := Ideal) .f32 ((1#1 : BitVec 1).setWidth 32) : Ideal .f32) = 1 := by
  show (((((1#1 : BitVec 1).setWidth 32).toInt : ℝ)) : EReal) = 1
  have h : ((1#1 : BitVec 1).setWidth 32).toInt = 1 := by decide
  rw [h, Int.cast_one, EReal.coe_one]

/-- The clear bit, zero-extended and converted, is 0. -/
theorem sitofp_zero : (FloatOps.sitofp (F := Ideal) .f32 ((0#1 : BitVec 1).setWidth 32) : Ideal .f32) = 0 := by
  show (((((0#1 : BitVec 1).setWidth 32).toInt : ℝ)) : EReal) = 0
  have h : ((0#1 : BitVec 1).setWidth 32).toInt = 0 := by decide
  rw [h, Int.cast_zero, EReal.coe_zero]

/-- The strict upper triangle as the kernel makes it: the converted bit of row < column. -/
theorem tri_apply (r c : Fin 512) :
    (sitofp .f32 (extui 32 (cmpi .slt (iota .tc S512x512 32 [0] iota_S512x512_d0_w32)
        (iota .tc S512x512 32 [1] iota_S512x512_d1_w32)) natLt_1_32) : FVec Ideal S512x512 .f32) (ix2 r c)
      = if r < c then 1 else 0 := by
  show FloatOps.sitofp .f32 ((IntOp.cmpi .slt (iota .tc S512x512 32 [0] iota_S512x512_d0_w32 (ix2 r c))
        (iota .tc S512x512 32 [1] iota_S512x512_d1_w32 (ix2 r c))).setWidth 32) = _
  rw [iota_single_apply, iota_single_apply]
  show FloatOps.sitofp .f32 ((IntOp.cmpi .slt (BitVec.ofNat 32 r.val) (BitVec.ofNat 32 c.val)).setWidth 32) = _
  have hr : r.val < 2 ^ 31 := by have := r.isLt; omega
  have hc : c.val < 2 ^ 31 := by have := c.isLt; omega
  by_cases h : r < c
  · rw [if_pos h, (slt_ofNat hr hc).mpr h]; exact sitofp_one
  · rw [if_neg h, eq_zero_of_ne_one (fun e => h ((slt_ofNat hr hc).mp e))]; exact sitofp_zero

/-- The mask of a tile: all ones strictly above the diagonal of tiles, the strict upper triangle on it. -/
theorem mask_apply (i : grid0.Coords) (r c : Fin 512) :
    (Scalar.select (Scalar.cmpi .sgt (BitVec.ofNat 32 (i 1).val) (BitVec.ofNat 32 (i 0).val))
        (broadcast S512x512 (Scalar.ofBits (F := Ideal) .f32 0x3F800000#32))
        (sitofp .f32 (extui 32 (cmpi .slt (iota .tc S512x512 32 [0] iota_S512x512_d0_w32)
          (iota .tc S512x512 32 [1] iota_S512x512_d1_w32)) natLt_1_32)) : FVec Ideal S512x512 .f32) (ix2 r c)
      = if (i 0).val < (i 1).val ∨ r < c then 1 else 0 := by
  have h0 : (i 0).val < 2 ^ 31 := by have : (i 0).val < 16 := (i 0).isLt; omega
  have h1 : (i 1).val < 2 ^ 31 := by have : (i 1).val < 16 := (i 1).isLt; omega
  by_cases h : (i 0).val < (i 1).val
  · rw [(sgt_ofNat h0 h1).mpr h, select_one, if_pos (Or.inl h)]
    exact oneW_eq
  · rw [eq_zero_of_ne_one (fun e => h ((sgt_ofNat h0 h1).mp e)), select_zero, tri_apply]
    by_cases h' : r < c
    · rw [if_pos h', if_pos (Or.inr h')]
    · rw [if_neg h', if_neg (fun o => o.elim h h')]

/-! ### The two reductions and the shape casts between them -/

/-- The sum along the lanes, read at a row. -/
theorem red1_apply (v : FVec Ideal S512x512 .f32) (p : Fin 512) :
    multiReduction .add [1] S512 v 0x00000000#32 reduces_S512x512_S512 (.inl rfl) rfl (ix1 p)
      = ∑ c : Fin 512, v (ix2 p c) := by
  refine (Ideal.multiReduction_add_single v _ reduces_S512x512_S512 _ _ (ix1 p)).trans ?_
  refine Finset.sum_congr rfl fun c _ => congrArg v ?_
  funext a
  refine Fin.ext ?_
  match a with
  | ⟨0, _⟩ => rfl
  | ⟨1, _⟩ => rfl

/-- The sum along the sublanes of a column. -/
theorem red0_apply (v : FVec Ideal S512x1 .f32) (j : S1.Idx) :
    multiReduction .add [0] S1 v 0x00000000#32 reduces_S512x1_S1 (.inl rfl) rfl j
      = ∑ r : Fin 512, v (ix2 r 0) := by
  refine (Ideal.multiReduction_add_single v _ reduces_S512x1_S1 _ _ j).trans ?_
  refine Finset.sum_congr rfl fun r _ => congrArg v ?_
  funext a
  refine Fin.ext ?_
  match a with
  | ⟨0, _⟩ => rfl
  | ⟨1, _⟩ =>
    show (j (0 : Fin 1)).val = 0
    have h : (j (0 : Fin 1)).val < 1 := (j 0).isLt
    omega

/-- A vector of 512 entries viewed as a column reads its entry. -/
theorem cast_col_apply (v : FVec Ideal S512 .f32) (r : Fin 512) (z : Fin 1) :
    shapeCast S512x1 v shapeCasts_S512_S512x1 (ix2 r z) = v (ix1 r) := by
  refine shapeCast_apply v _ (ix2 r z) (ix1 r) ?_
  rw [Shape.rowMajor_val_one, Shape.rowMajor_val_two]
  show r.val = r.val * 1 + z.val
  have := z.isLt
  omega

/-- A vector of one entry viewed as a 1 x 1 matrix reads that entry. -/
theorem cast_one_apply (v : FVec Ideal S1 .f32) (y : S1x1.Idx) :
    shapeCast S1x1 v shapeCasts_S1_S1x1 y = v (ix1 0) := by
  refine shapeCast_apply v _ y (ix1 0) ?_
  rw [Shape.rowMajor_val_one, Shape.rowMajor_val_two]
  show (0 : Nat) = (y 0).val * 1 + (y 1).val
  have h0 : (y 0).val < 1 := (y 0).isLt
  have h1 : (y 1).val < 1 := (y 1).isLt
  omega

/-- One tile's contribution: the accumulator plus the masked sum of the tile's pair terms. -/
theorem tile_apply (i : grid0.Coords) (hij : (i 0).val ≤ (i 1).val)
    (v23 v25 : Vec Ideal S512x1 .f32) (v27 v30 : Vec Ideal S1x512 .f32) (acc : Vec Ideal S1x1 .f32) (y : S1x1.Idx) :
    k0_pay2 (F := Ideal) i (k0_pay4 v23 v25 v27 v30) (iota .tc S512x512 32 [0] iota_S512x512_d0_w32) acc y
      = acc y + ∑ r : Fin 512, ∑ c : Fin 512,
          (if (i 0).val < (i 1).val ∨ r < c then pairTerm (v23 (ix2 r 0)) (v25 (ix2 r 0)) (v27 (ix2 0 c)) (v30 (ix2 0 c)) else 0) := by
  unfold k0_pay2
  simp only [shapeCast_self, addf_apply, mulf_apply, broadcast_apply]
  refine congrArg (acc y + ·) ?_
  refine (congrArg (· * _) oneW_eq).trans ?_
  rw [one_mul, cast_one_apply, red0_apply]
  refine Finset.sum_congr rfl fun r _ => ?_
  rw [cast_col_apply, red1_apply]
  refine Finset.sum_congr rfl fun c _ => ?_
  rw [mulf_apply, pay4_apply, mask_apply]
  by_cases h : (i 0).val < (i 1).val ∨ r < c
  · rw [if_pos h, if_pos h, mul_one]
  · rw [if_neg h, if_neg h, mul_zero]

end Cert.KernelIdeal.TileValue
end
-- ==== Proof.HeadValue.lean ====
/-
  The two head payloads of the kernel body read at the ideal values.

  * The reset payload is the zero pattern broadcast to a [1, 1] vector and cast to its own shape: every entry is 0.
  * The head payload adds to the accumulator the mean squared error and the clamped mean of 1 - cos of the two
    [8192, 1] columns.  Each mean is a sum over axis 0 of an [8192, 1] vector (a reduction into a one-entry vector,
    cast to [1, 1]) times 2^-13; the sum over the rank-2 index set is the sum over the rows, the second axis having
    one coordinate.
-/
import proofs.«102133_j45062796869702_1_alg».proof.Proof.Gen.KernelIdeal.Skeleton
import proofs.«102133_j45062796869702_1_alg».proof.Proof.LossSpec
import Idealize.ShloMosaic.Lib.ValueLayout
import Idealize.ShloMosaic.Lib.Pipeline.Value
import Idealize.ShloMosaic.PureOps.Ideal.Laws

noncomputable section
open Idealize.ShloMosaic Idealize.ShloMosaic.ValueIdx

namespace Cert.KernelIdeal.HeadValue

open Cert.KernelIdeal Cert.KernelIdeal.Gen Cert.LossSpec

/-- A sum over the index set of an [n, 1] array is the sum over its rows: the second axis has the one coordinate 0. -/
theorem sum_rows {n : ℕ} (f : (⟨2, ![n, 1]⟩ : Shape).Idx → EReal) :
    ∑ i, f i = ∑ a : Fin n, f (ix2 a 0) := by
  rw [sum_idx2]
  exact Finset.sum_congr rfl (fun a _ => Fin.sum_univ_one _)

/-- The sum of an [n, 1] vector over axis 0, into a one-entry vector cast to [1, 1], read at any index: the sum of
    the column's entries. -/
theorem reduce_cast_apply {n : ℕ} (src : FVec Ideal ⟨2, ![n, 1]⟩ .f32) (acc : BitVec 32)
    (h : (⟨2, ![n, 1]⟩ : Shape).Reduces [0] ⟨1, ![1]⟩) (hφ : FKind.Formats .f32)
    (hacc : acc = FKind.add.neutral .f32 hφ) (hc : (⟨1, ![1]⟩ : Shape).ShapeCasts ⟨2, ![1, 1]⟩)
    (y : (⟨2, ![1, 1]⟩ : Shape).Idx) :
    shapeCast ⟨2, ![1, 1]⟩ (multiReduction .add [0] ⟨1, ![1]⟩ src acc h hφ hacc) hc y
      = ∑ a : Fin n, src (ix2 a 0) := by
  obtain ⟨u, i, rfl⟩ : ∃ (u : Fin 1) (i : Fin 1), y = ix2 u i := ⟨y 0, y 1, eq_ix2 y⟩
  rw [shapeCast_a_1a_apply]
  refine (Ideal.multiReduction_add_total src acc h (fun b => ?_) hφ hacc _).trans (sum_rows src)
  match b with
  | ⟨0, _⟩ => rfl

/-- The reset payload is 0 at every index: the zero pattern, broadcast, cast to its own shape. -/
theorem reset_apply (y : S1x1.Idx) : k0_pay1 (F := Ideal) y = 0 := by
  unfold k0_pay1
  refine (congrFun (shapeCast_self _ _) y).trans ?_
  exact Ideal.ofBits_zero_f32

/-- The head payload at any index: the accumulator plus the mean squared error plus the clamped mean of 1 - cos of
    the two columns.  The two reductions are read as sums over the rows; the patterns 1.0, 0.0 and 2^-13 are the
    extended reals 1, 0 and 1/8192, and 1 * x = x; what is left is the specification's terms entry by entry. -/
theorem head_apply (v18 v19 : Vec Ideal S8192x1 .f32) (acc : Vec Ideal S1x1 .f32) (y : S1x1.Idx) :
    k0_pay3 (F := Ideal) v18 v19 acc y = acc y + mseLoss (col v18) (col v19) + simLoss (col v18) (col v19) := by
  unfold k0_pay3
  refine (congrFun (shapeCast_self _ _) y).trans ?_
  have hm := reduce_cast_apply (mulf (subf v18 v19) (subf v18 v19)) 0#32 reduces_S8192x1_S1 (.inl rfl) rfl
    shapeCasts_S1_S1x1 y
  have hs := reduce_cast_apply
    (subf (broadcast S8192x1 oneW) (divf (mulf v18 v19) (maximumf (mulf (absf v18) (absf v19)) (broadcast S8192x1 epsW))))
    0#32 reduces_S8192x1_S1 (.inl rfl) rfl shapeCasts_S1_S1x1 y
  show acc y + oneW * (_ * _) + oneW * max zeroW (_ * _) = _
  rw [hm, hs, broadcast_apply, oneW_eq, zeroW_eq, inv8192W_eq, one_mul, one_mul]
  unfold mseLoss simLoss
  refine congrArg₂ (· + ·) (congrArg₂ (· + ·) rfl (congrArg (· * _) (Finset.sum_congr rfl fun a _ => ?_)))
    (congrArg (max 0) (congrArg (· * _) (Finset.sum_congr rfl fun a _ => ?_)))
  · rfl
  · rfl

end Cert.KernelIdeal.HeadValue

end
-- ==== Proof.TileSum.lean ====
import Mathlib.Algebra.BigOperators.Fin
import Mathlib.Algebra.BigOperators.Group.Finset.Basic
import Mathlib.Logic.Equiv.Fin.Basic

/-!
# Tiled sums over the strict upper triangle of an 8192 × 8192 index square

The square `Fin 8192 × Fin 8192` is cut into a 16 × 16 grid of 512 × 512 tiles.
A pair `(a, b)` with `a = 512 * I + r` and `b = 512 * J + c` satisfies `a < b` exactly when
`I < J`, or `I = J` and `r < c`.  Hence summing the whole tiles strictly above the diagonal
and the strict upper triangles of the diagonal tiles gives the sum over all pairs `a < b`.
-/

namespace Cert.TileSum

open BigOperators

/-- the index 512 * I + r -/
def at512 (I : Fin 16) (r : Fin 512) : Fin 8192 := ⟨512 * I.val + r.val, by have := I.isLt; have := r.isLt; omega⟩

theorem at512_val (I : Fin 16) (r : Fin 512) : (at512 I r).val = 512 * I.val + r.val := rfl

/-- Every index below 8192 is uniquely `512 * I + r` with `I < 16` and `r < 512`:
quotient and remainder by 512 invert `at512`. -/
def split512 : Fin 16 × Fin 512 ≃ Fin 8192 where
  toFun p := at512 p.1 p.2
  invFun a := (⟨a.val / 512, by have := a.isLt; omega⟩, ⟨a.val % 512, by omega⟩)
  left_inv := by
    rintro ⟨I, r⟩
    have hI := I.isLt
    have hr := r.isLt
    apply Prod.ext
    · apply Fin.ext
      show (512 * I.val + r.val) / 512 = I.val
      omega
    · apply Fin.ext
      show (512 * I.val + r.val) % 512 = r.val
      omega
  right_inv := by
    intro a
    apply Fin.ext
    show 512 * (a.val / 512) + a.val % 512 = a.val
    omega

/-- A sum over `Fin 8192` is the sum over the 16 blocks of the sums over the 512 offsets. -/
theorem sum_split512 {M : Type*} [AddCommMonoid M] (G : Fin 8192 → M) :
    ∑ a : Fin 8192, G a = ∑ I : Fin 16, ∑ r : Fin 512, G (at512 I r) := by
  rw [← Equiv.sum_comp split512 G, Fintype.sum_prod_type]
  exact Finset.sum_congr rfl fun I _ => Finset.sum_congr rfl fun r _ => rfl

/-- Order of two indices read off their block and offset. -/
theorem at512_lt_iff (I J : Fin 16) (r c : Fin 512) :
    at512 I r < at512 J c ↔ I.val < J.val ∨ (I.val = J.val ∧ r.val < c.val) := by
  rw [Fin.lt_def, at512_val, at512_val]
  have := r.isLt
  have := c.isLt
  omega

theorem tiles_eq_pairs {M : Type*} [AddCommMonoid M] (f : Fin 8192 → Fin 8192 → M) :
    (∑ I : Fin 16, ∑ J : Fin 16, if I.val ≤ J.val then
        (∑ r : Fin 512, ∑ c : Fin 512, if I.val < J.val ∨ r < c then f (at512 I r) (at512 J c) else 0) else 0)
      = ∑ a : Fin 8192, ∑ b : Fin 8192, if a < b then f a b else 0 := by
  symm
  calc (∑ a : Fin 8192, ∑ b : Fin 8192, if a < b then f a b else 0)
      = ∑ I : Fin 16, ∑ r : Fin 512, ∑ J : Fin 16, ∑ c : Fin 512,
          if at512 I r < at512 J c then f (at512 I r) (at512 J c) else 0 := by
        -- split the row index, then the column index, into block and offset
        rw [sum_split512]
        refine Finset.sum_congr rfl fun I _ => Finset.sum_congr rfl fun r _ => ?_
        rw [sum_split512]
    _ = ∑ I : Fin 16, ∑ J : Fin 16, ∑ r : Fin 512, ∑ c : Fin 512,
          if at512 I r < at512 J c then f (at512 I r) (at512 J c) else 0 :=
        -- bring the two block indices to the outside
        Finset.sum_congr rfl fun I _ => Finset.sum_comm
    _ = _ := by
        refine Finset.sum_congr rfl fun I _ => Finset.sum_congr rfl fun J _ => ?_
        by_cases hIJ : I.val ≤ J.val
        · -- a tile on or above the diagonal: the two conditions agree entry by entry
          rw [if_pos hIJ]
          refine Finset.sum_congr rfl fun r _ => Finset.sum_congr rfl fun c _ => ?_
          refine if_congr ?_ rfl rfl
          rw [at512_lt_iff, Fin.lt_def]
          omega
        · -- a tile below the diagonal holds no pair a < b
          rw [if_neg hIJ]
          refine Finset.sum_eq_zero fun r _ => Finset.sum_eq_zero fun c _ => ?_
          rw [if_neg]
          rw [at512_lt_iff]
          omega

/-- Every index below 256 is uniquely `16 * I + J` with `I, J < 16`. -/
def grid16 : Fin 16 × Fin 16 ≃ Fin 256 where
  toFun p := ⟨16 * p.1.val + p.2.val, by have := p.1.isLt; have := p.2.isLt; omega⟩
  invFun t := (⟨t.val / 16, by have := t.isLt; omega⟩, ⟨t.val % 16, Nat.mod_lt _ (by decide)⟩)
  left_inv := by
    rintro ⟨I, J⟩
    have hI := I.isLt
    have hJ := J.isLt
    apply Prod.ext
    · apply Fin.ext
      show (16 * I.val + J.val) / 16 = I.val
      omega
    · apply Fin.ext
      show (16 * I.val + J.val) % 16 = J.val
      omega
  right_inv := by
    intro t
    apply Fin.ext
    show 16 * (t.val / 16) + t.val % 16 = t.val
    omega

/-- A row-major walk over the 16 × 16 grid visits every cell exactly once. -/
theorem grid_sum {M : Type*} [AddCommMonoid M] (g : Fin 16 → Fin 16 → M) :
    (∑ t : Fin 256, g ⟨t.val / 16, by have := t.isLt; omega⟩ ⟨t.val % 16, Nat.mod_lt _ (by decide)⟩) = ∑ I : Fin 16, ∑ J : Fin 16, g I J := by
  have h := Equiv.sum_comp grid16.symm (fun p : Fin 16 × Fin 16 => g p.1 p.2)
  rw [Fintype.sum_prod_type] at h
  exact h

end Cert.TileSum
-- ==== Proof.LossValue.lean ====
/-
  The value the kernel leaves in its result, at the ideal instance.

  After the first point the accumulator holds the mean-squared term plus the cosine term plus the tile
  (0, 0); each later point on or above the diagonal adds its tile's masked sum of pair losses; points below
  the diagonal add nothing.  So after point n it holds the two head terms plus the tile sums of the points
  up to n, and after the last point, the tiles above the diagonal whole and the diagonal tiles cut to their
  strict upper triangles covering exactly the pairs a < b, it holds the whole loss.  The last point copies it
  to the output block, the block is the one-element result array, and the host's reshape makes it a scalar.
-/
import proofs.«102133_j45062796869702_1_alg».proof.Proof.PiecesKernelIdeal
import proofs.«102133_j45062796869702_1_alg».proof.Proof.BlocksKernelIdeal
import proofs.«102133_j45062796869702_1_alg».proof.Proof.TileValue
import proofs.«102133_j45062796869702_1_alg».proof.Proof.HeadValue
import proofs.«102133_j45062796869702_1_alg».proof.Proof.TileSum
import Idealize.ShloMosaic.Lib.StableHlo.Run

set_option maxRecDepth 16384

noncomputable section

namespace Cert.KernelIdeal.LossValue

open Cert.KernelIdeal Cert.KernelIdeal.Gen Cert.KernelIdeal.Body Cert.LossSpec Cert.TileSum
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The first argument's column as launched, -/
abbrev tcol (c : Dev nD) : Fin 8192 → EReal := col (m ((c : Thread nD τ).loc main_arg0) : Vec Ideal S8192x1 .f32)
/-- and the second's. -/
abbrev pcol (c : Dev nD) : Fin 8192 → EReal := col (m ((c : Thread nD τ).loc main_arg1) : Vec Ideal S8192x1 .f32)

/-- The masked sum of pair losses of tile (I, J): all of it above the diagonal, its strict upper triangle on it. -/
def tileTerm (c : Dev nD) (I J : Fin 16) : EReal :=
  ∑ r : Fin 512, ∑ q : Fin 512, if I.val < J.val ∨ r < q then pairLoss (tcol m c) (pcol m c) (at512 I r) (at512 J q) else 0

theorem N256 : cfg0.N = 256 := N_0

/-- A tile step at point t adds tile (t / 16, t % 16). -/
theorem tileStep_apply (c : Dev nD) (t : Fin cfg0.N) (hu : isUpper (grid0.coords t)) (xs : Vec Ideal S1x1 .f32) (y : S1x1.Idx) :
    tileStep (grid0.coords t) hu (iblk m c 0 t) (iblk m c 1 t) (iblk m c 2 t) (iblk m c 3 t) xs y
      = xs y + tileTerm m c ⟨t.val / 16, by have := t.isLt; have hN : cfg0.N = 256 := N_0; omega⟩ ⟨t.val % 16, Nat.mod_lt _ (by decide)⟩ := by
  have hc := coords_val t
  have hij : ((grid0.coords t) 0).val ≤ ((grid0.coords t) 1).val := by rw [hc.1, hc.2]; exact (isUpper_iff t).mp hu
  unfold tileStep
  rw [TileValue.tile_apply (grid0.coords t) hij]
  congr 1
  unfold tileTerm
  refine Finset.sum_congr rfl fun r _ => Finset.sum_congr rfl fun q _ => ?_
  rw [ldRows_apply, ldRows_apply, ldCols_apply, ldCols_apply, blk0_apply, blk1_apply, blk2_apply, blk3_apply]
  have ea : ∀ h, (⟨512 * ((grid0.coords t) 0).val + r.val, h⟩ : Fin 8192)
      = at512 ⟨t.val / 16, by have := t.isLt; have hN : cfg0.N = 256 := N_0; omega⟩ r :=
    fun h => Fin.ext (by show 512 * ((grid0.coords t) 0).val + r.val = 512 * (t.val / 16) + r.val; rw [hc.1])
  have eb : ∀ h, (⟨512 * ((grid0.coords t) 1).val + q.val, h⟩ : Fin 8192)
      = at512 ⟨t.val % 16, Nat.mod_lt _ (by decide)⟩ q :=
    fun h => Fin.ext (by show 512 * ((grid0.coords t) 1).val + q.val = 512 * (t.val % 16) + q.val; rw [hc.2])
  rw [ea, eb]
  have e1 : (((grid0.coords t) 0).val < ((grid0.coords t) 1).val ∨ r < q) ↔ (t.val / 16 < t.val % 16 ∨ r < q) := by
    rw [hc.1, hc.2]
  exact if_congr e1 rfl rfl

/-- What point s adds: its tile's term on or above the diagonal, nothing below it (and nothing past the grid). -/
def pointTerm (c : Dev nD) (s : ℕ) : EReal :=
  if h : s < 256 then (if s / 16 ≤ s % 16 then tileTerm m c ⟨s / 16, by omega⟩ ⟨s % 16, Nat.mod_lt _ (by decide)⟩ else 0) else 0

/-- The two terms the first point adds. -/
def headTerm (c : Dev nD) : EReal := mseLoss (tcol m c) (pcol m c) + simLoss (tcol m c) (pcol m c)

theorem col_blk0 (c : Dev nD) (t : Fin cfg0.N) : col (iblk m c 0 t : Vec Ideal S8192x1 .f32) = tcol m c :=
  funext fun a => blk0_apply m c t a
theorem col_blk1 (c : Dev nD) (t : Fin cfg0.N) : col (iblk m c 1 t : Vec Ideal S8192x1 .f32) = pcol m c :=
  funext fun a => blk1_apply m c t a

theorem pointTerm_upper (c : Dev nD) (t : Fin cfg0.N) (hu : t.val / 16 ≤ t.val % 16) :
    pointTerm m c t.val = tileTerm m c ⟨t.val / 16, by have := t.isLt; have hN : cfg0.N = 256 := N_0; omega⟩ ⟨t.val % 16, Nat.mod_lt _ (by decide)⟩ := by
  have h : t.val < 256 := lt_of_lt_of_eq t.isLt N_0
  unfold pointTerm; rw [dif_pos h, if_pos hu]
theorem pointTerm_lower (c : Dev nD) (s : ℕ) (hu : ¬ s / 16 ≤ s % 16) : pointTerm m c s = 0 := by
  unfold pointTerm
  by_cases h : s < 256
  · rw [dif_pos h, if_neg hu]
  · rw [dif_neg h]

/-- THE ACCUMULATOR after point n: the head terms and the tile terms of the points up to n. -/
theorem accAt_eq (c : Dev nD) : ∀ (n : ℕ) (hn : n < cfg0.N) (y : S1x1.Idx),
    accAt m c n hn y = headTerm m c + ∑ s ∈ Finset.range (n + 1), pointTerm m c s := by
  intro n
  induction n with
  | zero =>
    intro hn y
    have h0 := accAt_first m c ⟨0, hn⟩ rfl
    rw [show accAt m c 0 hn = accAt m c (⟨0, hn⟩ : Fin cfg0.N).val (⟨0, hn⟩ : Fin cfg0.N).isLt from rfl, h0, accFirst_eq,
      HeadValue.head_apply, tileStep_apply, HeadValue.reset_apply, col_blk0, col_blk1]
    rw [Finset.sum_range_one, ← pointTerm_upper m c ⟨0, hn⟩ (by show 0 / 16 ≤ 0 % 16; decide)]
    unfold headTerm
    show 0 + pointTerm m c 0 + _ + _ = _
    rw [zero_add, add_assoc, add_comm]
  | succ n ih =>
    intro hn y
    have ihn : ∀ h', accAt m c (n + 1 - 1) h' y = headTerm m c + ∑ s ∈ Finset.range (n + 1), pointTerm m c s :=
      fun h' => ih (Nat.lt_of_succ_lt hn) y
    rw [Finset.sum_range_succ _ (n + 1), ← add_assoc]
    by_cases hu : (n + 1) / 16 ≤ (n + 1) % 16
    · have hpt := pointTerm_upper m c ⟨n + 1, hn⟩ hu
      by_cases hl : n + 1 = 255
      · have h1 := accAt_last m c ⟨n + 1, hn⟩ (Nat.succ_ne_zero n) hu hl
        rw [show accAt m c (n + 1) hn = accAt m c (⟨n + 1, hn⟩ : Fin cfg0.N).val (⟨n + 1, hn⟩ : Fin cfg0.N).isLt from rfl, h1,
          accLast_eq, tileStep_apply, hpt]
        exact congrArg (· + _) (ihn _)
      · have h1 := accAt_upper m c ⟨n + 1, hn⟩ (Nat.succ_ne_zero n) hu hl
        rw [show accAt m c (n + 1) hn = accAt m c (⟨n + 1, hn⟩ : Fin cfg0.N).val (⟨n + 1, hn⟩ : Fin cfg0.N).isLt from rfl, h1,
          accUpper_eq, tileStep_apply, hpt]
        exact congrArg (· + _) (ihn _)
    · have h1 := accAt_lower m c ⟨n + 1, hn⟩ (Nat.succ_ne_zero n) hu
      rw [show accAt m c (n + 1) hn = accAt m c (⟨n + 1, hn⟩ : Fin cfg0.N).val (⟨n + 1, hn⟩ : Fin cfg0.N).isLt from rfl, h1,
        pointTerm_lower m c (n + 1) hu, add_zero]
      exact ihn _

/-- The points' terms over the whole grid are the ranking loss. -/
theorem sum_points (c : Dev nD) : ∑ s ∈ Finset.range 256, pointTerm m c s = rankLoss (tcol m c) (pcol m c) := by
  rw [Finset.sum_range]
  have e : ∀ t : Fin 256, pointTerm m c t.val
      = (fun I J : Fin 16 => if I.val ≤ J.val then tileTerm m c I J else 0) ⟨t.val / 16, by have := t.isLt; omega⟩ ⟨t.val % 16, Nat.mod_lt _ (by decide)⟩ := by
    intro t; unfold pointTerm; rw [dif_pos t.isLt]
  refine (Finset.sum_congr rfl fun t _ => e t).trans ?_
  refine (grid_sum (fun I J : Fin 16 => if I.val ≤ J.val then tileTerm m c I J else 0)).trans ?_
  exact tiles_eq_pairs (pairLoss (tcol m c) (pcol m c))

theorem lt255 : 255 < cfg0.N := by have h : cfg0.N = 256 := N_0; omega

/-- THE RESULT BLOCK after the last point holds the whole loss. -/
theorem outAt_eq (c : Dev nD) (y : S1x1.Idx) : outAt m c ⟨255, lt255⟩ y = total (tcol m c) (pcol m c) := by
  have h1 := outAt_last m c ⟨255, lt255⟩ (by decide) rfl
  have hu : (⟨255, lt255⟩ : Fin cfg0.N).val / 16 ≤ (⟨255, lt255⟩ : Fin cfg0.N).val % 16 := by decide
  rw [h1, outLast_eq, tileStep_apply, ← pointTerm_upper m c ⟨255, lt255⟩ hu]
  have ih : ∀ h', accAt m c ((⟨255, lt255⟩ : Fin cfg0.N).val - 1) h' y = headTerm m c + ∑ s ∈ Finset.range (254 + 1), pointTerm m c s :=
    fun h' => accAt_eq m c 254 (by have h : cfg0.N = 256 := N_0; omega) y
  rw [ih, add_assoc]
  rw [show (∑ s ∈ Finset.range (254 + 1), pointTerm m c s) + pointTerm m c (⟨255, lt255⟩ : Fin cfg0.N).val
      = ∑ s ∈ Finset.range 256, pointTerm m c s from (Finset.sum_range_succ _ 255).symm]
  rw [sum_points]
  rfl

end Cert.KernelIdeal.LossValue

end
-- ==== Proof.ResultKernelIdeal.lean ====
/-
  The run of the idealized kernel, read at its result: the one-element result array ends holding the whole
  loss (the last grid point's copy of the accumulator is the only write-back, and its block is the array), the
  host's reshape of it to a scalar is the program's result, and the two arguments end as they began.
-/
import proofs.«102133_j45062796869702_1_alg».proof.Proof.LossValue

set_option maxRecDepth 16384

noncomputable section

namespace Cert.KernelIdeal.LossValue

open Cert.KernelIdeal Cert.KernelIdeal.Gen Cert.KernelIdeal.Body Cert.LossSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The last point. -/
abbrev tLast : Fin cfg0.N := ⟨255, lt255⟩

/-- The result array's contents after the run: what the last point left in the output block. -/
abbrev result (c : Dev nD) : Buf (Elt Ideal) ((c : Thread nD τ).loc main_v2) := outAt m c tLast

/-- The one write-back, at the last point, writes it: block (0, 0) of the [1, 1] array is the array. -/
theorem flushed_eq (c : Dev nD) (t : Fin cfg0.N) (hf : (cfg0.win 4).flush t = true) :
    (dats m 0 c).flushed 4 t = ((cfg0.win 4).blk t).view.read (Elt Ideal) (result m c) := by
  have hN : cfg0.N = 256 := N_0
  have h255 : t.val = 255 := by have := (flush0_4 t).mp hf; have := t.isLt; omega
  obtain rfl : t = tLast := Fin.ext h255
  show (cfg0.win 4).cut (grid0.coords tLast) ((dats m 0 c).after 4 tLast) = _
  rw [after_4]
  have hz' : (fun a => win0_4.index tLast a * main_v2.ty.shape.size a) = fun _ => 0 := funext fun a => by fin_cases a <;> decide
  exact (Memref.read_access_unit_zero (Elt Ideal) main_v2 hz' (fun a => by rw [congrFun hz' a]; simp) (result m c)).symm

/-- So the result array ends holding it: the last point's block covers the array. -/
theorem final_o (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v2).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The program's result, the host's reshape of the result array to a scalar, is the whole loss. -/
theorem result_v3 (c : Dev nD) :
    Pipeline.afterTail₀ cfgs (dats m) 0 (V0 m) [hostOps1] c main_v3 = fun _ => total (tcol m c) (pcol m c) := by
  unfold Pipeline.afterTail₀
  show StableHlo.after hostOps1 _ (Proc.devRef .tc main_v3) = _
  after_results
  funext i
  show shapeCast S_ (Pipeline.withArrays (cfgs 0).spec c (V0 m c) (fun w => (dats m 0 c).arrAt w (cfgs 0).N) (Proc.tc.devRef main_v2)) shapeCasts_S1x1_S_ i = _
  have hk : (S1x1.rowMajor (ix2 0 0)).val = (S_.rowMajor i).val := by
    have h1 : (S1x1.rowMajor (ix2 0 0)).val < 1 := (S1x1.rowMajor (ix2 0 0)).isLt
    have h2 : (S_.rowMajor i).val < 1 := (S_.rowMajor i).isLt
    omega
  rw [shapeCast_apply _ shapeCasts_S1x1_S_ i (ix2 0 0) hk]
  have e := Pipeline.withArrays_arr spec0 launch0.win.arr_inj c (V0 m c) (fun w => (dats m 0 c).arrAt w (cfgs 0).N) 4
  rw [show Pipeline.withArrays (cfgs 0).spec c (V0 m c) (fun w => (dats m 0 c).arrAt w (cfgs 0).N) (Proc.tc.devRef main_v2) = (dats m 0 c).arrAt 4 cfg0.N from e]
  rw [final_o]
  exact outAt_eq m c (ix2 0 0)

/-- THE RUN, READ: the idealized kernel's result is the whole loss of its two arguments, which end unchanged. -/
theorem run_value : θ_run defs (onTc (τ := τ) (main (F := Ideal))) ⟨m, fun _ => 0, ρ⟩ (fun r => ∀ c : Dev nD,
      r.2.mem ((c.tc : Thread nD τ).loc main_v3) = (fun _ => total (tcol m c) (pcol m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 rfl (fun w => by fin_cases w <;> decide))).trans (result_v3 m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.LossValue

end
-- ==== Proof.RefValue.lean ====
import proofs.«102133_j45062796869702_1_alg».proof.Proof.Gen.ReferenceIdeal.Read
import proofs.«102133_j45062796869702_1_alg».proof.Proof.LossSpec

noncomputable section
open Idealize.ShloMosaic Idealize.ShloMosaic.ValueIdx

namespace Cert.RefValue
open Cert.ReferenceIdeal Cert.ReferenceIdeal.Gen
open Cert.ReferenceIdeal.Read Cert.LossSpec
open scoped BigOperators

/-! ### Sums over index sets, by coordinates -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the index set of a column (second extent one) is the sum over the rows. -/
theorem sum_col {M : Type*} [AddCommMonoid M] {n : Nat} (f : (⟨2, ![n, 1]⟩ : Shape).Idx → M) :
    ∑ i, f i = ∑ a : Fin n, f (ix2 a 0) := by
  rw [sum_idx2]
  refine Finset.sum_congr rfl fun a _ => ?_
  exact Fin.sum_univ_one _

/-! ### The mean squared error -/

theorem mse_part (x0 x1 : (⟨S8192x1, .f32⟩ : BufTy).Contents (Elt Ideal)) (i : S_.Idx) :
    val_main_v3 (F := Ideal) x0 x1 i = mseLoss (col x0) (col x1) := by
  rw [val_main_v3_apply, val_main_v2_apply, val_main_cst_apply, val_main_cst_0_apply, Ideal.hostDivf_def,
    Ideal.ofBits_def, Ideal.ofBits_zero_f32, zero_add, div8192, sum_col]
  rfl

/-! ### The clamped mean of one minus the cosine -/

/-- The reshape of a column to a vector reads row a at (a, 0). -/
theorem idx_v4_ix1 (a : Fin 8192) : idx_main_v4 (ix1 a) = ix2 a 0 := by
  funext d
  match d with
  | ⟨0, _⟩ => exact Fin.ext (Nat.div_one _)
  | ⟨1, _⟩ => rfl

theorem idx_v5_ix1 (a : Fin 8192) : idx_main_v5 (ix1 a) = ix2 a 0 := idx_v4_ix1 a

theorem v14_at (x0 x1 : (⟨S8192x1, .f32⟩ : BufTy).Contents (Elt Ideal)) (a : Fin 8192) :
    val_main_v14 (F := Ideal) x0 x1 (ix1 a) = oneMinusCos (col x0) (col x1) a := by
  rw [val_main_v14_apply, val_main_v13_apply, val_main_cst_2_apply, val_main_v12_apply, val_main_v6_apply,
    val_main_v11_apply, val_main_v9_apply, val_main_v7_apply, val_main_v8_apply, val_main_v10_apply,
    val_main_cst_1_apply, val_main_v4_apply, val_main_v5_apply, idx_v4_ix1, idx_v5_ix1,
    show (FloatOps.ofBits (F := Ideal) .f32 0x3F800000#32 : Ideal .f32) = (1 : EReal) from oneW_eq]
  rfl

theorem sim_part (x0 x1 : (⟨S8192x1, .f32⟩ : BufTy).Contents (Elt Ideal)) (i : S_.Idx) :
    val_main_v17 (F := Ideal) x0 x1 i = simLoss (col x0) (col x1) := by
  rw [val_main_v17_apply, val_main_cst_5_apply, val_main_v16_apply, val_main_v15_apply, val_main_cst_3_apply,
    val_main_cst_4_apply, Ideal.hostDivf_def, Ideal.maximumf_def, Ideal.ofBits_def, Ideal.ofBits_zero_f32, zero_add,
    div8192, sum_idx1]
  unfold simLoss
  congr 2
  exact Finset.sum_congr rfl fun a _ => v14_at x0 x1 a

/-! ### The pairwise ranking loss -/

/-- Broadcasting a column along the second axis reads row a at (a, 0) … -/
theorem idx_v20_ix2 (a b : Fin 8192) : idx_main_v20 (ix2 a b) = ix2 a 0 := by
  funext d
  match d with
  | ⟨0, _⟩ => rfl
  | ⟨1, _⟩ => rfl
/-- … and a row along the first axis reads column b at (0, b). -/
theorem idx_v21_ix2 (a b : Fin 8192) : idx_main_v21 (ix2 a b) = ix2 0 b := by
  funext d
  match d with
  | ⟨0, _⟩ => rfl
  | ⟨1, _⟩ => rfl
theorem idx_v25_ix2 (a b : Fin 8192) : idx_main_v25 (ix2 a b) = ix2 a 0 := idx_v20_ix2 a b
theorem idx_v26_ix2 (a b : Fin 8192) : idx_main_v26 (ix2 a b) = ix2 0 b := idx_v21_ix2 a b

/-- A vector placed as a column is read at the row … -/
theorem idx_v18_ix2 (a : Fin 8192) (c : Fin 1) : idx_main_v18 (ix2 a c) = ix1 a := by
  funext d
  match d with
  | ⟨0, _⟩ => rfl
/-- … and placed as a row, at the column. -/
theorem idx_v19_ix2 (c : Fin 1) (b : Fin 8192) : idx_main_v19 (ix2 c b) = ix1 b := by
  funext d
  match d with
  | ⟨0, _⟩ => rfl
theorem idx_v23_ix2 (a : Fin 8192) (c : Fin 1) : idx_main_v23 (ix2 a c) = ix1 a := idx_v18_ix2 a c
theorem idx_v24_ix2 (c : Fin 1) (b : Fin 8192) : idx_main_v24 (ix2 c b) = ix1 b := idx_v19_ix2 c b

/-- The difference table of the first input: entry (a, b) is t a - t b. -/
theorem v22_at (x0 : (⟨S8192x1, .f32⟩ : BufTy).Contents (Elt Ideal)) (a b : Fin 8192) :
    val_main_v22 (F := Ideal) x0 (ix2 a b) = x0 (ix2 a 0) - x0 (ix2 b 0) := by
  rw [val_main_v22_apply, val_main_v20_apply, idx_v20_ix2, val_main_v18_apply, idx_v18_ix2, val_main_v4_apply,
    idx_v4_ix1, val_main_v21_apply, idx_v21_ix2, val_main_v19_apply, idx_v19_ix2, val_main_v4_apply, idx_v4_ix1]
  rfl

/-- The difference table of the second input: entry (a, b) is p a - p b. -/
theorem v27_at (x1 : (⟨S8192x1, .f32⟩ : BufTy).Contents (Elt Ideal)) (a b : Fin 8192) :
    val_main_v27 (F := Ideal) x1 (ix2 a b) = x1 (ix2 a 0) - x1 (ix2 b 0) := by
  rw [val_main_v27_apply, val_main_v25_apply, idx_v25_ix2, val_main_v23_apply, idx_v23_ix2, val_main_v5_apply,
    idx_v5_ix1, val_main_v26_apply, idx_v26_ix2, val_main_v24_apply, idx_v24_ix2, val_main_v5_apply, idx_v5_ix1]
  rfl

/-- The nested selects are the four-way target of the two differences. -/
theorem v39_at (x0 x1 : (⟨S8192x1, .f32⟩ : BufTy).Contents (Elt Ideal)) (a b : Fin 8192) :
    val_main_v39 (F := Ideal) x0 x1 (ix2 a b)
      = target (x0 (ix2 a 0) - x0 (ix2 b 0)) (x1 (ix2 a 0) - x1 (ix2 b 0)) := by
  rw [val_main_v39_apply, val_main_v29_apply, val_main_v28_apply, val_main_cst_6_apply, val_main_call3_v0_apply,
    val_main_cst_14_apply, val_main_v38_apply, val_main_v31_apply, val_main_v30_apply, val_main_cst_7_apply,
    val_main_call2_v0_apply, val_main_cst_13_apply, val_main_v37_apply, val_main_v33_apply, val_main_v32_apply,
    val_main_cst_8_apply, val_main_call1_v0_apply, val_main_cst_12_apply, val_main_v36_apply, val_main_v35_apply,
    val_main_v34_apply, val_main_cst_9_apply, val_main_call0_v0_apply, val_main_cst_10_apply,
    val_main_call0_v1_apply, val_main_cst_11_apply, v22_at, v27_at]
  rfl

/-- The clamped product of a pair is its margin-ranking loss. -/
theorem v44_at (x0 x1 : (⟨S8192x1, .f32⟩ : BufTy).Contents (Elt Ideal)) (a b : Fin 8192) :
    val_main_v44 (F := Ideal) x0 x1 (ix2 a b) = pairLoss (col x0) (col x1) a b := by
  rw [val_main_v44_apply, val_main_v43_apply, val_main_cst_15_apply, val_main_v42_apply, val_main_v41_apply,
    val_main_v40_apply, v39_at, v27_at, Ideal.ofBits_def, Ideal.ofBits_zero_f32]
  rfl

/-- Signed comparison of two row numbers below 8192, as 32-bit words: row + 0 ≥ column exactly when the column
    number is at most the row number (both words are far below 2^31, so their signed readings are the numbers). -/
theorem sge_iota (a b : Fin 8192) :
    IntOp.cmpi .sge (IntOp.addi (BitVec.ofNat 32 a.val) 0#32) (BitVec.ofNat 32 b.val) = if b ≤ a then 1#1 else 0#1 := by
  have ha := a.isLt
  have hb := b.isLt
  have ea : (BitVec.ofNat 32 a.val).toInt = (a.val : Int) := by
    rw [BitVec.toInt_eq_toNat_of_lt (by rw [BitVec.toNat_ofNat]; omega), BitVec.toNat_ofNat]; omega
  have eb : (BitVec.ofNat 32 b.val).toInt = (b.val : Int) := by
    rw [BitVec.toInt_eq_toNat_of_lt (by rw [BitVec.toNat_ofNat]; omega), BitVec.toNat_ofNat]; omega
  show BitVec.ofBool ((BitVec.ofNat 32 b.val).sle (BitVec.ofNat 32 a.val + 0#32)) = _
  rw [BitVec.add_zero, BitVec.sle_eq_decide, ea, eb]
  by_cases h : b ≤ a
  · have h' : (b.val : Int) ≤ (a.val : Int) := Int.ofNat_le.mpr (Fin.le_def.mp h)
    rw [if_pos h, decide_eq_true h']; rfl
  · have h' : ¬ (b.val : Int) ≤ (a.val : Int) := fun hh => h (Fin.le_def.mpr (Int.ofNat_le.mp hh))
    rw [if_neg h, decide_eq_false h']; rfl

/-- The strict upper triangle: the mask's bit at (a, b) is set exactly when a < b. -/
theorem mask_at (a b : Fin 8192) :
    val_main_v46 (F := Ideal) (ix2 a b) = if a < b then 1#1 else 0#1 := by
  rw [val_main_v46_apply, val_main_call4_v4_apply, val_main_call4_v2_apply, val_main_call4_v0_apply,
    val_main_call4_v1_apply, val_main_call4_c_apply, val_main_call4_v3_apply, val_main_call4_v5_apply,
    val_main_call4_c_0_apply, val_main_v45_apply, val_main_c_apply]
  show Scalar.select (IntOp.cmpi .sge (IntOp.addi (BitVec.ofNat 32 a.val) 0#32) (BitVec.ofNat 32 b.val)) 0#1 1#1 = _
  rw [sge_iota]
  by_cases h : b ≤ a
  · rw [if_pos h, if_neg (not_lt.mpr h), select_one]
  · rw [if_neg h, if_pos (not_le.mp h), select_zero]

/-- The masked table: the pair's loss above the diagonal, zero on and below it. -/
theorem v47_at (x0 x1 : (⟨S8192x1, .f32⟩ : BufTy).Contents (Elt Ideal)) (a b : Fin 8192) :
    val_main_v47 (F := Ideal) x0 x1 (ix2 a b) = if a < b then pairLoss (col x0) (col x1) a b else 0 := by
  rw [val_main_v47_apply, mask_at]
  by_cases h : a < b
  · rw [if_pos h, if_pos h, select_one, v44_at]
  · rw [if_neg h, if_neg h, select_zero, val_main_call5_v1_apply, val_main_call5_v0_apply, val_main_cst_16_apply]
    exact Ideal.ofBits_zero_f32

theorem rank_part (x0 x1 : (⟨S8192x1, .f32⟩ : BufTy).Contents (Elt Ideal)) (i : S_.Idx) :
    val_main_v48 (F := Ideal) x0 x1 i = rankLoss (col x0) (col x1) := by
  rw [val_main_v48_apply, val_main_cst_17_apply, Ideal.ofBits_def, Ideal.ofBits_zero_f32, zero_add, sum_idx2]
  exact Finset.sum_congr rfl fun a _ => Finset.sum_congr rfl fun b _ => v47_at x0 x1 a b

/-! ### The whole loss -/

theorem ref_total (x0 x1 : (⟨S8192x1, .f32⟩ : BufTy).Contents (Elt Ideal)) (i : S_.Idx) :
    Cert.ReferenceIdeal.Read.val_main_v53 (F := Ideal) x0 x1 i = Cert.LossSpec.total (Cert.LossSpec.col x0) (Cert.LossSpec.col x1) := by
  rw [val_main_v53_apply, val_main_v51_apply, val_main_v49_apply, val_main_v50_apply, val_main_v52_apply,
    val_main_cst_18_apply, val_main_cst_19_apply, val_main_cst_20_apply, mse_part, sim_part, rank_part,
    show (FloatOps.ofBits (F := Ideal) .f32 0x3F800000#32 : Ideal .f32) = (1 : EReal) from oneW_eq]
  show (1 : EReal) * _ + 1 * _ + 1 * _ = _
  rw [one_mul, one_mul, one_mul]
  rfl

end Cert.RefValue

end
-- ==== Proof.lean ====
/-
  The certificate of a fused three-term loss kernel against its reference.

  The kernel computes, over two columns t, p of 8192 numbers, the mean squared error of t - p, the clamped
  mean of one minus the cosine of the one-entry rows (t a), (p a), and the pairwise margin-ranking loss
  over the pairs a < b, and returns their sum.  It runs a 16 x 16 grid of 512 x 512 tiles of the pair
  matrix, skipping the tiles below the diagonal, masking the diagonal tiles to their strict upper triangle,
  and keeping one running sum in a scratch cell; the first grid point also adds the two mean terms, the last
  copies the running sum out.  The reference forms the whole 8192 x 8192 pair matrix and sums its strict
  upper triangle.

  At the ideal instance both are the same extended real: the tiles on and above the diagonal, the diagonal
  ones cut to r < c, cover exactly the pairs a < b, sums of extended reals may be regrouped freely, a
  product with the mask bit is the selection, and the product with 2^-13 is the quotient by 8192.

  The three frames: the kernel's at both instances from the symbolic runs of its body (one per kind of
  grid point) carried through the grid by the scratch cell's contents; the reference's from its run.  The
  idealization rewrote nothing, so that conjunct is trivial.
-/
import proofs.«102133_j45062796869702_1_alg».proof.Defs
import proofs.«102133_j45062796869702_1_alg».proof.Proof.Gen.Kernel
import proofs.«102133_j45062796869702_1_alg».proof.Proof.Gen.KernelIdeal
import proofs.«102133_j45062796869702_1_alg».proof.Proof.Gen.ReferenceIdeal
import proofs.«102133_j45062796869702_1_alg».proof.Proof.Gen.Pre_finite_inputs
import proofs.«102133_j45062796869702_1_alg».proof.Proof.Gen.ReferenceIdeal.Run
import proofs.«102133_j45062796869702_1_alg».proof.Proof.Gen.ReferenceIdeal.Read
import proofs.«102133_j45062796869702_1_alg».proof.Proof.FrameKernel
import proofs.«102133_j45062796869702_1_alg».proof.Proof.ResultKernelIdeal
import proofs.«102133_j45062796869702_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and keeps its arguments. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end at the whole loss of the arguments they agree on. -/
theorem algebraic : Cert.algebraic_KernelIdeal_ReferenceIdeal := by
  intro m ρ m' ρ' _ hagree
  refine ⟨fun c => (fun _ => Cert.LossSpec.total (Cert.KernelIdeal.LossValue.tcol m c) (Cert.KernelIdeal.LossValue.pcol m c)),
    Cert.KernelIdeal.LossValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq]
  funext i
  rw [Cert.RefValue.ref_total, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
